-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S512x512 : Shape := ⟨2, ![512, 512]⟩
abbrev S1x512 : Shape := ⟨2, ![1, 512]⟩
abbrev S1024x4x128 : Shape := ⟨3, ![1024, 4, 128]⟩
abbrev S1024x4 : Shape := ⟨2, ![1024, 4]⟩
abbrev S1024x4x1 : Shape := ⟨3, ![1024, 4, 1]⟩
abbrev S128x512 : Shape := ⟨2, ![128, 512]⟩
abbrev S128x4x128 : Shape := ⟨3, ![128, 4, 128]⟩
abbrev S128x4 : Shape := ⟨2, ![128, 4]⟩
abbrev S4 : Shape := ⟨1, ![4]⟩
abbrev S1x4x1 : Shape := ⟨3, ![1, 4, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v115 : BitVec 1 := Scalar.cmpi .eq arg2 c7_i32
  let v116 : BitVec 32 := Scalar.extui v115
  let c0_i32_37 : BitVec 32 := 0#32
  let v117 : BitVec 1 := Scalar.cmpi .ne v116 c0_i32_37
  v117

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S1024x512_S1024x4x128 : S1024x512.ShapeCasts S1024x4x128
  reduces_S1024x4x128_S1024x4 : S1024x4x128.Reduces [2] S1024x4
  shapeCasts_S1024x4_S1024x4x1 : S1024x4.ShapeCasts S1024x4x1
  broadcasts_S1024x4x1_S1024x4x128 : S1024x4x1.Broadcasts S1024x4x128
  shapeCasts_S1024x4x128_S1024x512 : S1024x4x128.ShapeCasts S1024x512
  slices_S512x512_o0_0_S128x512 : S512x512.Slices ![0, 0] S128x512
  shapeCasts_S128x512_S128x4x128 : S128x512.ShapeCasts S128x4x128
  reduces_S128x4x128_S128x4 : S128x4x128.Reduces [2] S128x4
  reduces_S128x4_S4 : S128x4.Reduces [0] S4
  shapeCasts_S4_S1x4x1 : S4.ShapeCasts S1x4x1
  shapeCasts_S1x4x1_S1x4x1 : S1x4x1.ShapeCasts S1x4x1
  broadcasts_S1x4x1_S128x4x128 : S1x4x1.Broadcasts S128x4x128
  shapeCasts_S128x4x128_S128x512 : S128x4x128.ShapeCasts S128x512
  slices_S512x512_o128_0_S128x512 : S512x512.Slices ![128, 0] S128x512
  slices_S512x512_o256_0_S128x512 : S512x512.Slices ![256, 0] S128x512
  slices_S512x512_o384_0_S128x512 : S512x512.Slices ![384, 0] S128x512
  concatenates_S128x512_S128x512_S128x512_S128x512_S512x512_d0 : Shape.Concatenates [S128x512, S128x512, S128x512, S128x512] S512x512 0
  bitsLt_bf16_f32 : FTy.bits .bf16 < FTy.bits .f32
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S32x128x32x128 : Shape := ⟨4, ![32, 128, 32, 128]⟩
abbrev S32x32 : Shape := ⟨2, ![32, 32]⟩
abbrev S32x1x32x1 : Shape := ⟨4, ![32, 1, 32, 1]⟩
abbrev S1x4096 : Shape := ⟨2, ![1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S_, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S8192x32, .f32⟩
  | .hbm, ⟨13, _⟩ => ⟨S8192x32, .f32⟩
  | .hbm, ⟨14, _⟩ => ⟨S8192x32x1, .f32⟩
  | .hbm, ⟨15, _⟩ => ⟨S8192x32x128, .f32⟩
  | .hbm, ⟨16, _⟩ => ⟨S8192x32x128, .f32⟩
  | .hbm, ⟨17, _⟩ => ⟨S8192x32x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x32x128, .f32⟩
  | .hbm, ⟨22, _⟩ => ⟨S8192x32x128, .f32⟩
  | .hbm, ⟨23, _⟩ => ⟨S_, .f32⟩
  | .hbm, ⟨24, _⟩ => ⟨S8192x32x128, .f32⟩
  | .hbm, ⟨25, _⟩ => ⟨S8192x32x128, .f32⟩
  | .hbm, ⟨26, _⟩ => ⟨S32x128x32x128, .f32⟩
  | .hbm, ⟨27, _⟩ => ⟨S32x128x32x128, .f32⟩
  | .hbm, ⟨28, _⟩ => ⟨S_, .f32⟩
  | .hbm, ⟨29, _⟩ => ⟨S32x32, .f32⟩
  | .hbm, ⟨30, _⟩ => ⟨S_, .f32⟩
  | .hbm, ⟨31, _⟩ => ⟨S32x32, .f32⟩
  | .hbm, ⟨32, _⟩ => ⟨S32x32, .f32⟩
  | .hbm, ⟨33, _⟩ => ⟨S_, .f32⟩
  | .hbm, ⟨34, _⟩ => ⟨S32x32, .f32⟩
  | .hbm, ⟨35, _⟩ => ⟨S32x32, .f32⟩
  | .hbm, ⟨36, _⟩ => ⟨S32x1x32x1, .f32⟩
  | .hbm, ⟨37, _⟩ => ⟨S32x128x32x128, .f32⟩
  | .hbm, ⟨38, _⟩ => ⟨S32x128x32x128, .f32⟩
  | .hbm, ⟨39, _⟩ => ⟨S32x128x32x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32x128x32x128, .f32⟩
  | .hbm, ⟨44, _⟩ => ⟨S32x128x32x128, .f32⟩
  | .hbm, ⟨45, _⟩ => ⟨S_, .f32⟩
  | .hbm, ⟨46, _⟩ => ⟨S32x128x32x128, .f32⟩
  | .hbm, ⟨47, _⟩ => ⟨S32x128x32x128, .f32⟩
  | .hbm, ⟨48, _⟩ => ⟨S4096x4096, .f32⟩
  | .hbm, ⟨49, _⟩ => ⟨S8192x32x1, .f32⟩
  | .hbm, ⟨50, _⟩ => ⟨S8192x32x128, .f32⟩
  | .hbm, ⟨51, _⟩ => ⟨S8192x32x128, .f32⟩
  | .hbm, ⟨52, _⟩ => ⟨S8192x4096, .f32⟩
  | .hbm, ⟨53, _⟩ => ⟨S32x128x32x128, .f32⟩
  | .hbm, ⟨54, _⟩ => ⟨S32x1x32x1, .f32⟩
  | .hbm, ⟨55, _⟩ => ⟨S32x128x32x128, .f32⟩
  | .hbm, ⟨56, _⟩ => ⟨S32x128x32x128, .f32⟩
  | .hbm, ⟨57, _⟩ => ⟨S4096x4096, .f32⟩
  | .hbm, ⟨58, _⟩ => ⟨S4096x4096, .f32⟩
  | .hbm, ⟨59, _⟩ => ⟨S8192x4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_cst_8 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S8192x32x128 : S8192x4096.ShapeCasts S8192x32x128
  reducesTo_S8192x32x128_S8192x32_d2 : S8192x32x128.ReducesTo [2] S8192x32
  h_S_ : 0 < S_.numel
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S4096x4096_S32x128x32x128 : S4096x4096.ShapeCasts S32x128x32x128
  reducesTo_S32x128x32x128_S32x32_d1_3 : S32x128x32x128.ReducesTo [1, 3] S32x32
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  bcast_S_S32x128x32x128 : S_.BroadcastsInDim S32x128x32x128 (![] : Fin 0 → Fin S32x128x32x128.rank)
  shapeCasts_S32x128x32x128_S4096x4096 : S32x128x32x128.ShapeCasts S4096x4096
  shapeCasts_S8192x32x128_S8192x4096 : S8192x32x128.ShapeCasts S8192x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the kernel body leaves behind, case by case, as values of the blocks it loaded.  The body keeps a
  1024 × 512 accumulator between grid points.  At the first point of a run of eight it stores zeros into it; at every
  point it adds the product of the dequantised activation block with the transposed dequantised weight block; at the
  last point of the eight it also writes accumulator + bias row into the output block.
-/
import proofs.«114933_j23905787969796_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

theorem hz : (![0, 0] : Fin 2 → Nat) = fun _ => 0 := funext fun a => by fin_cases a <;> rfl

/-- The accumulator after one run of the body on the activation block `x0` and the weight block `x1`, over the old
    accumulator `acc`. -/
def body (x0 : Vec F S1024x512 .f32) (x1 : Vec F S512x512 .f32) (acc : Vec F S1024x512 .f32) : Vec F S1024x512 .f32 :=
  k0_pay1 (k0_pay4 x0) (k0_pay8 (k0_pay6 x1) (k0_pay7 x1) (Scalar.ofBits .f32 0xC3000000#32) (Scalar.ofBits .f32 0x42FE0000#32))
    (k0_pay9 x1) (k0_pay10 x1) (k0_pay11 x1) acc

/-- A middle point (neither first nor last of its eight): the accumulator is updated over what the point before left. -/
theorem sout_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) :
    sout0_B_0 c i arg3 harg3 arg4 harg4 arg5 harg5 arg6 harg6 arg7 harg7 hc0 hc1 x0 x1 x2 xs0 = body x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x512) hz, View.ld_unit_zero (S := S512x512) hz]
  rfl

/-- The last point of eight: the accumulator is updated the same way, -/
theorem sout_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) :
    sout0_C_0 c i arg3 harg3 arg4 harg4 arg5 harg5 arg6 harg6 arg7 harg7 hc0 hc1 x0 x1 x2 xs0 = body x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x512) hz, View.ld_unit_zero (S := S512x512) hz]
  rfl

/-- and the output block is the updated accumulator plus the bias row `x2`. -/
theorem out_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) :
    out0_C_3 c i arg3 harg3 arg4 harg4 arg5 harg5 arg6 harg6 arg7 harg7 hc0 hc1 x0 x1 x2 xs0 = k0_pay2 (body x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.readCov_unit_zero (S := S1024x512) _ hz, View.ld_unit_zero (S := S1024x512) hz, View.ld_unit_zero (S := S512x512) hz, View.ld_unit_zero (S := S1x512) hz]
  rfl

/-- The first point of eight: zeros are stored first, so the accumulator is the update of the zero block. -/
theorem sout_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) :
    sout0_A_0 c i arg3 harg3 arg4 harg4 arg5 harg5 arg6 harg6 arg7 harg7 hc0 hc1 x0 x1 x2 = body x0 x1 (k0_pay3 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x512) hz, View.readCov_unit_zero (S := S1024x512) _ hz]
  simp only [View.readAt_eq_ld, harg3.read_unread, harg4.read_unread, View.ld_unit_zero (S := S1024x512) hz, View.ld_unit_zero (S := S512x512) hz]
  rfl

end Cert.KernelIdeal.Value

end
-- ==== Proof.Spec.lean ====
/-
  The mathematics both programs compute, stated once over arrays indexed by natural numbers.

  An activation matrix x and a weight matrix w are cut into groups of 128 consecutive columns
  (for w also into groups of 128 consecutive rows).  Each group has a scale: the largest absolute
  value in the group divided by 127, but at least 1e-12.  Every entry is replaced by
  clamp(round(entry / scale), -128, 127) * scale ("quantised, then dequantised").  The result is
  the matrix product of the dequantised activations with the transposed dequantised weights,
  plus a bias row.  All arithmetic is the exact arithmetic of the extended reals; the four float
  constants are kept as the literal words both programs print.
-/
import Idealize.ShloMosaic.PureOps.Ideal
import Idealize.ShloMosaic.Lib.ValueIdx
import Mathlib.Algebra.BigOperators.Fin

noncomputable section

namespace Cert.QLin

open Idealize.ShloMosaic Idealize.ShloMosaic.ValueIdx

/-- An extended real. -/
abbrev E : Type := Ideal .f32

/-- The four constants of the computation, as the words printed: minus infinity, 127, 1e-12 (as f32), -128. -/
def negInf : E := Ideal.ofBits .f32 0xFF800000#32
def c127 : E := Ideal.ofBits .f32 0x42FE0000#32
def cEps : E := Ideal.ofBits .f32 0x2B8CBCCC#32
def cM128 : E := Ideal.ofBits .f32 0xC3000000#32

/-- The absolute value. -/
def absE (v : E) : E := max v (-v)

/-- A group's scale from the largest absolute value `a` in it. -/
def scaleOf (a : E) : E := max (Ideal.div a c127) cEps

/-- One entry quantised with scale `s` and dequantised again. -/
def qdq (v s : E) : E := min c127 (max cM128 (Ideal.liftRound Ideal.roundHalfEven (Ideal.div v s))) * s

/-- The largest of 128 values (from minus infinity). -/
def max128 (f : Fin 128 → E) : E := (Finset.univ : Finset (Fin 128)).fold max negInf f

/-- The scale of row `r`, column group `kb` of the activations. -/
def xScale (x : ℕ → ℕ → E) (r kb : ℕ) : E :=
  scaleOf (max128 fun c => absE (x r (128 * kb + c.val)))

/-- The scale of row group `nb`, column group `kb` of the weights: the rows' maxima, then the maximum over the rows. -/
def wScale (w : ℕ → ℕ → E) (nb kb : ℕ) : E :=
  scaleOf (max128 fun rr => max128 fun c => absE (w (128 * nb + rr.val) (128 * kb + c.val)))

/-- The dequantised activations. -/
def XD (x : ℕ → ℕ → E) (r k : ℕ) : E := qdq (x r k) (xScale x r (k / 128))

/-- The dequantised weights. -/
def WD (w : ℕ → ℕ → E) (n k : ℕ) : E := qdq (w n k) (wScale w (n / 128) (k / 128))

/-- The inner product of row `r` of the dequantised activations with row `n` of the dequantised weights over the
    `len` columns from `k0` on. -/
def dotSeg (len : ℕ) (x w : ℕ → ℕ → E) (r n k0 : ℕ) : E := ∑ c : Fin len, XD x r (k0 + c.val) * WD w n (k0 + c.val)

/-- The result: the full inner product over 4096 columns plus the bias. -/
def G (x w : ℕ → ℕ → E) (b : ℕ → E) (r n : ℕ) : E := dotSeg 4096 x w r n 0 + b n

/-- A rank-2 array read at natural-number coordinates (zero outside its extents). -/
def nat2 {n0 n1 : ℕ} (a : (⟨2, ![n0, n1]⟩ : Shape).Idx → E) (r k : ℕ) : E :=
  if h : r < n0 ∧ k < n1 then a (ix2 ⟨r, h.1⟩ ⟨k, h.2⟩) else 0

theorem nat2_ix2 {n0 n1 : ℕ} (a : (⟨2, ![n0, n1]⟩ : Shape).Idx → E) (r : Fin n0) (k : Fin n1) :
    a (ix2 r k) = nat2 a r.val k.val := by
  unfold nat2
  rw [dif_pos ⟨r.isLt, k.isLt⟩]

theorem nat2_of_lt {n0 n1 : ℕ} (a : (⟨2, ![n0, n1]⟩ : Shape).Idx → E) (r k : ℕ) (hr : r < n0) (hk : k < n1) :
    nat2 a r k = a (ix2 ⟨r, hr⟩ ⟨k, hk⟩) := by
  unfold nat2
  rw [dif_pos ⟨hr, hk⟩]

/-- A rank-1 array read at a natural-number coordinate (zero outside). -/
def nat1 {n : ℕ} (a : (⟨1, ![n]⟩ : Shape).Idx → E) (k : ℕ) : E :=
  if h : k < n then a (ix1 ⟨k, h⟩) else 0

theorem nat1_of_lt {n : ℕ} (a : (⟨1, ![n]⟩ : Shape).Idx → E) (k : ℕ) (hk : k < n) :
    nat1 a k = a (ix1 ⟨k, hk⟩) := by
  unfold nat1
  rw [dif_pos hk]

/-- The activations as the programs use them: the [4, 2048, 4096] argument read as 8192 rows, row `r` being entry
    (r / 2048, r % 2048) of the leading two axes (zero outside). -/
def x2d (a : (⟨3, ![4, 2048, 4096]⟩ : Shape).Idx → E) (r k : ℕ) : E :=
  if h : r < 8192 ∧ k < 4096 then a (ix3 ⟨r / 2048, by omega⟩ ⟨r % 2048, Nat.mod_lt _ (by norm_num)⟩ ⟨k, h.2⟩) else 0

theorem x2d_of_lt (a : (⟨3, ![4, 2048, 4096]⟩ : Shape).Idx → E) (r k : ℕ) (hr : r < 8192) (hk : k < 4096) :
    x2d a r k = a (ix3 ⟨r / 2048, by omega⟩ ⟨r % 2048, Nat.mod_lt _ (by norm_num)⟩ ⟨k, hk⟩) := by
  unfold x2d
  rw [dif_pos ⟨hr, hk⟩]

/-! ## A block of an array has the dequantised values of the array -/

/-- If `xb` is the 512 columns of `xa` from `K0` (a multiple of 128) on, rows shifted by `R0`, then inside the block the
    dequantised values are the array's. -/
theorem XD_shift (xa xb : ℕ → ℕ → E) (R0 K0 nr : ℕ) (hK : K0 % 128 = 0)
    (h : ∀ r c, r < nr → c < 512 → xb r c = xa (R0 + r) (K0 + c)) (r c : ℕ) (hr : r < nr) (hc : c < 512) :
    XD xb r c = XD xa (R0 + r) (K0 + c) := by
  unfold XD xScale max128
  rw [h r c hr hc]
  congr 2
  refine Finset.fold_congr fun q _ => ?_
  have hq : q.val < 128 := q.isLt
  rw [h r _ hr (by omega)]
  congr 2
  omega

/-- The same for the weights: rows shifted by `N0`, columns by `K0`, both multiples of 128, the block 512 × 512. -/
theorem WD_shift (wa wb : ℕ → ℕ → E) (N0 K0 : ℕ) (hN : N0 % 128 = 0) (hK : K0 % 128 = 0)
    (h : ∀ n c, n < 512 → c < 512 → wb n c = wa (N0 + n) (K0 + c)) (n c : ℕ) (hn : n < 512) (hc : c < 512) :
    WD wb n c = WD wa (N0 + n) (K0 + c) := by
  unfold WD wScale max128
  rw [h n c hn hc]
  congr 2
  refine Finset.fold_congr fun p _ => ?_
  refine Finset.fold_congr fun q _ => ?_
  have hp : p.val < 128 := p.isLt
  have hq : q.val < 128 := q.isLt
  rw [h _ _ (by omega) (by omega)]
  congr 2 <;> omega

/-- So a block's inner product over its 512 columns is that segment of the array's. -/
theorem dotSeg_shift (xa xb wa wb : ℕ → ℕ → E) (R0 N0 K0 nr : ℕ) (hN : N0 % 128 = 0) (hK : K0 % 128 = 0)
    (hx : ∀ r c, r < nr → c < 512 → xb r c = xa (R0 + r) (K0 + c))
    (hw : ∀ n c, n < 512 → c < 512 → wb n c = wa (N0 + n) (K0 + c)) (r n : ℕ) (hr : r < nr) (hn : n < 512) :
    dotSeg 512 xb wb r n 0 = dotSeg 512 xa wa (R0 + r) (N0 + n) K0 := by
  unfold dotSeg
  refine Finset.sum_congr rfl fun c _ => ?_
  have hc : c.val < 512 := c.isLt
  rw [Nat.zero_add, XD_shift xa xb R0 K0 nr hK hx r c.val hr hc, WD_shift wa wb N0 K0 hN hK hw n c.val hn hc]

end Cert.QLin

end
-- ==== Proof.Blocks.lean ====
/-
  Where the kernel's blocks sit in its arrays.  The grid has 8 × 8 × 8 points; point t has coordinates
  (t / 64, t / 8 mod 8, t mod 8) = (row block i, column block j of the output, step kk along the contraction).  The activation block
  at t is rows 1024 i …, columns 512 kk … of the [8192, 4096] activations; the weight block is rows 512 j …, columns
  512 kk … of the weights; the bias block is columns 512 j … of the bias row; the output block is rows 1024 i …,
  columns 512 j … .  The activations the region finds are the [4, 2048, 4096] argument read as 8192 rows, the bias row the
  [4096] argument read as one row.
-/
import proofs.«114933_j23905787969796_1_alg».proof.Proof.Gen.KernelIdeal.Frame
import proofs.«114933_j23905787969796_1_alg».proof.Proof.Spec
import Idealize.ShloMosaic.Lib.Pipeline.Value
import Idealize.ShloMosaic.Lib.StableHlo.Run
import Idealize.ShloMosaic.Lib.Tactic
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.QLin

variable (m : (ℓ : Loc nD τ sig) → Buf (Elt Ideal) ℓ)

/-- The three input blocks at a point and the three arrays they are cut from, at their literal types. -/
abbrev xblk (c : Dev nD) (t : Fin cfg0.N) : Vec Ideal S1024x512 .f32 := iblk m c 0 t
abbrev wblk (c : Dev nD) (t : Fin cfg0.N) : Vec Ideal S512x512 .f32 := iblk m c 1 t
abbrev bblk (c : Dev nD) (t : Fin cfg0.N) : Vec Ideal S1x512 .f32 := iblk m c 2 t
abbrev xarr (c : Dev nD) : Vec Ideal S8192x4096 .f32 := V m c main_v0
abbrev warr (c : Dev nD) : Vec Ideal S4096x4096 .f32 := V m c main_arg1
abbrev barr (c : Dev nD) : Vec Ideal S1x4096 .f32 := V m c main_v1

theorem N512 : cfg0.N = 512 := N_0

/-- The block indices of the four windows at point t. -/
theorem idx0 : ∀ t : Fin cfg0.N, win0_0.index t 0 = t.val / 64 ∧ win0_0.index t 1 = t.val % 8 :=
  (by decide +kernel : ∀ t : Fin grid0.N, win0_0.index t 0 = t.val / 64 ∧ win0_0.index t 1 = t.val % 8)
theorem idx1 : ∀ t : Fin cfg0.N, win0_1.index t 0 = t.val / 8 % 8 ∧ win0_1.index t 1 = t.val % 8 :=
  (by decide +kernel : ∀ t : Fin grid0.N, win0_1.index t 0 = t.val / 8 % 8 ∧ win0_1.index t 1 = t.val % 8)
theorem idx2 : ∀ t : Fin cfg0.N, win0_2.index t 0 = 0 ∧ win0_2.index t 1 = t.val / 8 % 8 :=
  (by decide +kernel : ∀ t : Fin grid0.N, win0_2.index t 0 = 0 ∧ win0_2.index t 1 = t.val / 8 % 8)
theorem idx3 : ∀ t : Fin cfg0.N, win0_3.index t 0 = t.val / 64 ∧ win0_3.index t 1 = t.val / 8 % 8 :=
  (by decide +kernel : ∀ t : Fin grid0.N, win0_3.index t 0 = t.val / 64 ∧ win0_3.index t 1 = t.val / 8 % 8)

/-- The activation block at t, entry (r, k), is the activations at (1024 (t / 64) + r, 512 (t mod 8) + k). -/
theorem xblk_nat (c : Dev nD) (t : Fin cfg0.N) (r k : ℕ) (hr : r < 1024) (hk : k < 512) :
    nat2 (xblk m c t) r k = nat2 (xarr m c) (t.val / 64 * 1024 + r) (t.val % 8 * 512 + k) := by
  have hN : t.val < 512 := lt_of_lt_of_eq t.isLt N512
  rw [nat2_of_lt _ _ _ hr hk, nat2_of_lt _ _ _ (by omega) (by omega)]
  show (iblk m c 0 t : Vec Ideal S1024x512 .f32) _ = _
  unfold iblk
  rw [View.read_apply]
  show V m c main_v0 _ = V m c main_v0 _
  congr 1
  funext a
  apply Fin.ext
  match a with
  | ⟨0, _⟩ => show win0_0.index t 0 * 1024 + 1 * r = t.val / 64 * 1024 + r; rw [(idx0 t).1]; omega
  | ⟨1, _⟩ => show win0_0.index t 1 * 512 + 1 * k = t.val % 8 * 512 + k; rw [(idx0 t).2]; omega

/-- The weight block at t, entry (n, k), is the weights at (512 (t / 8 mod 8) + n, 512 (t mod 8) + k). -/
theorem wblk_nat (c : Dev nD) (t : Fin cfg0.N) (n k : ℕ) (hn : n < 512) (hk : k < 512) :
    nat2 (wblk m c t) n k = nat2 (warr m c) (t.val / 8 % 8 * 512 + n) (t.val % 8 * 512 + k) := by
  have hN : t.val < 512 := lt_of_lt_of_eq t.isLt N512
  rw [nat2_of_lt _ _ _ hn hk, nat2_of_lt _ _ _ (by omega) (by omega)]
  show (iblk m c 1 t : Vec Ideal S512x512 .f32) _ = _
  unfold iblk
  rw [View.read_apply]
  show V m c main_arg1 _ = V m c main_arg1 _
  congr 1
  funext a
  apply Fin.ext
  match a with
  | ⟨0, _⟩ => show win0_1.index t 0 * 512 + 1 * n = t.val / 8 % 8 * 512 + n; rw [(idx1 t).1]; omega
  | ⟨1, _⟩ => show win0_1.index t 1 * 512 + 1 * k = t.val % 8 * 512 + k; rw [(idx1 t).2]; omega

/-- The bias block at t, entry (0, n), is the bias row at (0, 512 (t / 8 mod 8) + n). -/
theorem bblk_nat (c : Dev nD) (t : Fin cfg0.N) (n : ℕ) (hn : n < 512) :
    nat2 (bblk m c t) 0 n = nat2 (barr m c) 0 (t.val / 8 % 8 * 512 + n) := by
  have hN : t.val < 512 := lt_of_lt_of_eq t.isLt N512
  rw [nat2_of_lt _ _ _ (by omega) hn, nat2_of_lt _ _ _ (by omega) (by omega)]
  show (iblk m c 2 t : Vec Ideal S1x512 .f32) _ = _
  unfold iblk
  rw [View.read_apply]
  show V m c main_v1 _ = V m c main_v1 _
  congr 1
  funext a
  apply Fin.ext
  match a with
  | ⟨0, _⟩ => show win0_2.index t 0 * 1 + 1 * 0 = 0; rw [(idx2 t).1]
  | ⟨1, _⟩ => show win0_2.index t 1 * 512 + 1 * n = t.val / 8 % 8 * 512 + n; rw [(idx2 t).2]; omega

/-! ## The arrays the region finds -/

/-- The activations: the [4, 2048, 4096] argument read as 8192 rows. -/
theorem xarr_nat (c : Dev nD) (r k : ℕ) (hr : r < 8192) (hk : k < 4096) :
    nat2 (xarr m c) r k = x2d (m ((c : Thread nD τ).loc main_arg0)) r k := by
  rw [nat2_of_lt _ _ _ hr hk, x2d_of_lt _ _ _ hr hk]
  have e : (V m c main_v0 : S8192x4096.Idx → Ideal .f32)
      = shapeCast S8192x4096 (m ((c : Thread nD τ).loc main_arg0)) shapeCasts_S4x2048x4096_S8192x4096 := by
    show StableHlo.after hostOps0 (fun b => m (c, b)) (Proc.devRef .tc main_v0) = _
    after_results; rfl
  show V m c main_v0 _ = _
  rw [e]
  exact shapeCast_apply _ shapeCasts_S4x2048x4096_S8192x4096 _ _ (by
    rewrite [Shape.rowMajor_val_three, Shape.rowMajor_val_two]
    show (r / 2048 * 2048 + r % 2048) * 4096 + k = r * 4096 + k
    omega)

/-- The weights: the argument itself. -/
theorem warr_eq (c : Dev nD) : warr m c = m ((c : Thread nD τ).loc main_arg1) := V_main_arg1 m c

/-- The bias row: the [4096] argument read as one row. -/
theorem barr_nat (c : Dev nD) (n : ℕ) (hn : n < 4096) :
    nat2 (barr m c) 0 n = nat1 (m ((c : Thread nD τ).loc main_arg2)) n := by
  rw [nat2_of_lt _ _ _ (by omega) hn, nat1_of_lt _ _ hn]
  have e : (V m c main_v1 : S1x4096.Idx → Ideal .f32)
      = shapeCast S1x4096 (m ((c : Thread nD τ).loc main_arg2)) shapeCasts_S4096_S1x4096 := by
    show StableHlo.after hostOps0 (fun b => m (c, b)) (Proc.devRef .tc main_v1) = _
    after_results; rfl
  show V m c main_v1 _ = _
  rw [e]
  exact shapeCast_a_1a_apply _ shapeCasts_S4096_S1x4096 _ _

end Cert.KernelIdeal.Value

end
-- ==== Proof.QuantX.lean ====
/-
  The activation block as the kernel body dequantises it: entry (r, c) of the body's value for a loaded
  1024 × 512 block is the dequantised value of the block at (r, c), the scale being that of the 128 columns
  around c in row r.
-/
import proofs.«114933_j23905787969796_1_alg».proof.Proof.Gen.KernelIdeal.Skeleton
import proofs.«114933_j23905787969796_1_alg».proof.Proof.Spec
import Idealize.ShloMosaic.Lib.Pipeline.Value
import Idealize.ShloMosaic.Lib.ValueIdx
import Idealize.ShloMosaic.PureOps.Ideal.Laws

noncomputable section

namespace Cert.KernelIdeal.BodyValue

open Idealize.ShloMosaic Idealize.ShloMosaic.ValueIdx Cert.KernelIdeal Cert.KernelIdeal.Gen Cert.QLin

/-! ## The two reshapes between [1024, 512] and [1024, 4, 128] -/

/-- Entry (r, g, q) of the [1024, 4, 128] view of a [1024, 512] value is entry (r, 128 g + q). -/
theorem qx_split_apply (X : FVec Ideal S1024x512 .f32) (h : S1024x512.ShapeCasts S1024x4x128)
    (r : Fin 1024) (g : Fin 4) (q : Fin 128) :
    shapeCast S1024x4x128 X h (ix3 r g q)
      = X (ix2 r ⟨128 * g.val + q.val, by have := g.isLt; have := q.isLt; omega⟩) := by
  refine shapeCast_apply _ _ _ _ ?_
  rw [Shape.rowMajor_val_two, Shape.rowMajor_val_three]
  show r.val * 512 + (128 * g.val + q.val) = (r.val * 4 + g.val) * 128 + q.val
  omega

/-- Entry (r, c) of the [1024, 512] view of a [1024, 4, 128] value is entry (r, c / 128, c % 128). -/
theorem qx_merge_apply (Y : FVec Ideal S1024x4x128 .f32) (h : S1024x4x128.ShapeCasts S1024x512)
    (r : Fin 1024) (c : Fin 512) :
    shapeCast S1024x512 Y h (ix2 r c)
      = Y (ix3 r ⟨c.val / 128, by have := c.isLt; omega⟩ ⟨c.val % 128, Nat.mod_lt _ (by norm_num)⟩) := by
  refine shapeCast_apply _ _ _ _ ?_
  rw [Shape.rowMajor_val_three, Shape.rowMajor_val_two]
  show (r.val * 4 + c.val / 128) * 128 + c.val % 128 = r.val * 512 + c.val
  omega

/-- A per-group value spread back over the 128 lanes of its group: [1024, 4] → [1024, 4, 1] → [1024, 4, 128]. -/
theorem qx_lanes_apply (s : FVec Ideal S1024x4 .f32) (h1 : S1024x4.ShapeCasts S1024x4x1)
    (h2 : S1024x4x1.Broadcasts S1024x4x128) (r : Fin 1024) (g : Fin 4) (q : Fin 128) :
    broadcastTo S1024x4x128 (shapeCast S1024x4x1 s h1) h2 (ix3 r g q) = s (ix2 r g) := by
  refine (broadcastTo_apply _ _ _ (ix3 r g (0 : Fin 1)) ?_).trans ?_
  · intro a
    match a with
    | ⟨0, _⟩ => rfl
    | ⟨1, _⟩ => rfl
    | ⟨2, _⟩ => rfl
  · refine shapeCast_apply _ _ _ _ ?_
    rw [Shape.rowMajor_val_two, Shape.rowMajor_val_three]
    show r.val * 4 + g.val = (r.val * 4 + g.val) * 1 + 0
    omega

/-- The lane maximum from minus infinity at (r, g) is the largest of the 128 entries (r, g, ·). -/
theorem qx_laneMax_apply (v : FVec Ideal S1024x4x128 .f32) (h : S1024x4x128.Reduces [2] S1024x4)
    (hφ : FKind.Formats .f32) (hacc : (0xFF800000#32 : BitVec 32) = FKind.maximumf.neutral .f32 hφ)
    (r : Fin 1024) (g : Fin 4) :
    multiReduction (F := Ideal) .maximumf [2] S1024x4 v 0xFF800000#32 h hφ hacc (ix2 r g)
      = max128 fun q => v (ix3 r g q) := by
  refine (Ideal.multiReduction_maximumf_single v _ h hφ hacc (ix2 r g)).trans ?_
  unfold max128 negInf
  refine Finset.fold_congr fun q _ => ?_
  refine congrArg v (funext fun a => Fin.ext ?_)
  match a with
  | ⟨0, _⟩ => rfl
  | ⟨1, _⟩ => rfl
  | ⟨2, _⟩ => rfl

/-! ## The body on the [1024, 4, 128] view -/

/-- The scale of each (row, group) as the body takes it: the lane maximum of the absolute values over 127,
    but at least 1e-12. -/
def qxScales (v6 : FVec Ideal S1024x4x128 .f32) : FVec Ideal S1024x4 .f32 :=
  maximumf
    (divf (multiReduction (F := Ideal) .maximumf [2] S1024x4 (absf v6) 0xFF800000#32 reduces_S1024x4x128_S1024x4 (.inl rfl) rfl)
      (broadcast S1024x4 (Scalar.ofBits .f32 0x42FE0000#32)))
    (broadcast S1024x4 (Scalar.ofBits .f32 0x2B8CBCCC#32))

/-- A per-group value over the lanes of its group. -/
def qxLanes (s : FVec Ideal S1024x4 .f32) : FVec Ideal S1024x4x128 .f32 :=
  broadcastTo S1024x4x128 (shapeCast S1024x4x1 s shapeCasts_S1024x4_S1024x4x1) broadcasts_S1024x4x1_S1024x4x128

/-- Divide by the scale, round to even, clamp to [-128, 127], multiply by the scale. -/
def qxCore (v6 : FVec Ideal S1024x4x128 .f32) : FVec Ideal S1024x4x128 .f32 :=
  mulf
    (minimumf (broadcast S1024x4x128 (Scalar.ofBits .f32 0x42FE0000#32))
      (maximumf (broadcast S1024x4x128 (Scalar.ofBits .f32 0xC3000000#32)) (roundeven (divf v6 (qxLanes (qxScales v6))))))
    (qxLanes (qxScales v6))

/-- The body's value is the [1024, 512] view of the above on the [1024, 4, 128] view of the block. -/
theorem qx_pay4_eq (X : Vec Ideal S1024x512 .f32) :
    k0_pay4 (F := Ideal) X
      = shapeCast S1024x512
          (qxCore (shapeCast S1024x4x128 (shapeCast S1024x512 X shapeCasts_S1024x512_S1024x512) shapeCasts_S1024x512_S1024x4x128))
          shapeCasts_S1024x4x128_S1024x512 := rfl

theorem qxScales_apply (v6 : FVec Ideal S1024x4x128 .f32) (r : Fin 1024) (g : Fin 4) :
    qxScales v6 (ix2 r g) = scaleOf (max128 fun q => absE (v6 (ix3 r g q))) := by
  unfold qxScales
  refine (maximumf_apply _ _ _).trans ?_
  unfold scaleOf
  refine congrArg₂ max ?_ rfl
  refine (divf_apply _ _ _).trans ?_
  refine congrArg₂ Ideal.div ?_ rfl
  exact qx_laneMax_apply (absf v6) _ _ _ r g

theorem qxCore_apply (v6 : FVec Ideal S1024x4x128 .f32) (r : Fin 1024) (g : Fin 4) (q : Fin 128) :
    qxCore v6 (ix3 r g q) = qdq (v6 (ix3 r g q)) (scaleOf (max128 fun q' => absE (v6 (ix3 r g q')))) := by
  have hs : qxLanes (qxScales v6) (ix3 r g q) = scaleOf (max128 fun q' => absE (v6 (ix3 r g q'))) :=
    (qx_lanes_apply _ _ _ r g q).trans (qxScales_apply v6 r g)
  unfold qxCore qdq
  refine (mulf_apply _ _ _).trans ?_
  refine congrArg₂ (· * ·) ?_ hs
  refine (minimumf_apply _ _ _).trans ?_
  refine congrArg₂ min rfl ?_
  refine (maximumf_apply _ _ _).trans ?_
  refine congrArg₂ max rfl ?_
  show Ideal.liftRound Ideal.roundHalfEven (Ideal.div (v6 (ix3 r g q)) (qxLanes (qxScales v6) (ix3 r g q))) = _
  rw [hs]

/-! ## The statement -/

/-- Entry (r, g, q) of the [1024, 4, 128] view of the loaded block is the block's entry (r, 128 g + q). -/
theorem qx_view_apply (X : Vec Ideal S1024x512 .f32) (r : Fin 1024) (g : Fin 4) (q : Fin 128) :
    shapeCast S1024x4x128 (shapeCast S1024x512 X shapeCasts_S1024x512_S1024x512) shapeCasts_S1024x512_S1024x4x128 (ix3 r g q)
      = nat2 X r.val (128 * g.val + q.val) := by
  refine (qx_split_apply _ _ r g q).trans ?_
  rw [shapeCast_self]
  exact nat2_ix2 X r ⟨128 * g.val + q.val, by have := g.isLt; have := q.isLt; omega⟩

theorem pay4_apply (X : Vec Ideal S1024x512 .f32) (r : Fin 1024) (c : Fin 512) :
    k0_pay4 (F := Ideal) X (ix2 r c) = XD (nat2 X) r.val c.val := by
  have hc : c.val < 512 := c.isLt
  refine (congrFun (qx_pay4_eq X) (ix2 r c)).trans ?_
  refine (qx_merge_apply _ _ r c).trans ?_
  refine (qxCore_apply _ r _ _).trans ?_
  unfold XD xScale
  refine congrArg₂ qdq ?_ (congrArg scaleOf (congrArg max128 (funext fun q' => congrArg absE ?_)))
  · refine (qx_view_apply X r _ _).trans ?_
    show nat2 X r.val (128 * (c.val / 128) + c.val % 128) = _
    rw [Nat.div_add_mod]
  · exact qx_view_apply X r _ q'

end Cert.KernelIdeal.BodyValue

end
-- ==== Proof.QuantW.lean ====
/-
  The weight block as the kernel body dequantises it.  The 512 × 512 block is cut into four bands of 128 rows;
  each band is viewed as 128 × 4 × 128, its scale per column group is the maximum over the band's rows of the
  rows' maxima of absolute values, and the four dequantised bands are stacked again.  Entry (n, c) of the
  stacked value is the dequantised value of the block at (n, c).
-/
import proofs.«114933_j23905787969796_1_alg».proof.Proof.Gen.KernelIdeal.Skeleton
import proofs.«114933_j23905787969796_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen Cert.QLin

variable {F : FTy → Type} [FloatOps F]

/-- One band (already viewed as 128 × 4 × 128) dequantised, as the body's operations compute it. -/
def wband (v86 : FVec F S128x4x128 .f32) : FVec F S128x512 .f32 :=
  have v87 : FVec F S128x4x128 .f32 := absf v86
  have v88 : FVec F S128x4 .f32 := multiReduction .maximumf [2] S128x4 v87 0xFF800000#32 reduces_S128x4x128_S128x4 (.inl rfl) rfl
  have v89 : FVec F S4 .f32 := multiReduction .maximumf [0] S4 v88 0xFF800000#32 reduces_S128x4_S4 (.inl rfl) rfl
  have cst_28 : F .f32 := Scalar.ofBits .f32 0x42FE0000#32
  have v90 : FVec F S4 .f32 := broadcast S4 cst_28
  have v91 : FVec F S4 .f32 := divf v89 v90
  have cst_29 : F .f32 := Scalar.ofBits .f32 0x2B8CBCCC#32
  have v92 : FVec F S4 .f32 := broadcast S4 cst_29
  have v93 : FVec F S4 .f32 := maximumf v91 v92
  have v94 : FVec F S1x4x1 .f32 := shapeCast S1x4x1 v93 shapeCasts_S4_S1x4x1
  have v95 : FVec F S1x4x1 .f32 := shapeCast S1x4x1 v94 shapeCasts_S1x4x1_S1x4x1
  have v96 : FVec F S128x4x128 .f32 := broadcastTo S128x4x128 v95 broadcasts_S1x4x1_S128x4x128
  have v97 : FVec F S128x4x128 .f32 := divf v86 v96
  have v98 : FVec F S128x4x128 .f32 := roundeven v97
  have cst_30 : F .f32 := Scalar.ofBits .f32 0xC3000000#32
  have cst_31 : F .f32 := Scalar.ofBits .f32 0x42FE0000#32
  have v99 : FVec F S128x4x128 .f32 := broadcast S128x4x128 cst_30
  have v100 : FVec F S128x4x128 .f32 := maximumf v99 v98
  have v101 : FVec F S128x4x128 .f32 := broadcast S128x4x128 cst_31
  have v102 : FVec F S128x4x128 .f32 := minimumf v101 v100
  have v103 : FVec F S128x4x128 .f32 := mulf v102 v96
  shapeCast S128x512 v103 shapeCasts_S128x4x128_S128x512

/-- The four dequantised bands of a loaded weight block stacked: the body's 512 × 512 value before the matrix product. -/
def wcat (W : Vec F S512x512 .f32) : FVec F S512x512 .f32 :=
  concatenate S512x512 0 [⟨S128x512, k0_pay8 (k0_pay6 W) (k0_pay7 W) (Scalar.ofBits .f32 0xC3000000#32) (Scalar.ofBits .f32 0x42FE0000#32)⟩,
    ⟨S128x512, k0_pay9 W⟩, ⟨S128x512, k0_pay10 W⟩, ⟨S128x512, wband (k0_pay11 W)⟩]
    concatenates_S128x512_S128x512_S128x512_S128x512_S512x512_d0

/-- The maximum of absolute values along the lanes of each (row, column group) of a band. -/
def qwRowMax (v : FVec Ideal S128x4x128 .f32) : FVec Ideal S128x4 .f32 :=
  multiReduction .maximumf [2] S128x4 (absf v) 0xFF800000#32 reduces_S128x4x128_S128x4 (.inl rfl) rfl

/-- The maximum over the rows of the rows' maxima, per column group. -/
def qwColMax (v : FVec Ideal S128x4x128 .f32) : FVec Ideal S4 .f32 :=
  multiReduction .maximumf [0] S4 (qwRowMax v) 0xFF800000#32 reduces_S128x4_S4 (.inl rfl) rfl

/-- The per-column-group scale of a band. -/
def qwScale (v : FVec Ideal S128x4x128 .f32) : FVec Ideal S4 .f32 :=
  maximumf (divf (qwColMax v) (broadcast S4 (Scalar.ofBits .f32 0x42FE0000#32))) (broadcast S4 (Scalar.ofBits .f32 0x2B8CBCCC#32))

/-- The scale broadcast over the band. -/
def qwLanes (v : FVec Ideal S128x4x128 .f32) : FVec Ideal S128x4x128 .f32 :=
  broadcastTo S128x4x128 (shapeCast S1x4x1 (shapeCast S1x4x1 (qwScale v) shapeCasts_S4_S1x4x1) shapeCasts_S1x4x1_S1x4x1) broadcasts_S1x4x1_S128x4x128

/-- A dequantised band is, entry by entry of the 128 × 4 × 128 view, the entry quantised with the broadcast scale and
    dequantised again; the result is read back as 128 × 512. -/
theorem wband_eq (v : FVec Ideal S128x4x128 .f32) :
    wband v = shapeCast S128x512 (fun i => qdq (v i) (qwLanes v i)) shapeCasts_S128x4x128_S128x512 := rfl

/-- The broadcast scale at (rr, g, q) is the scale of column group g. -/
theorem qwLanes_apply (v : FVec Ideal S128x4x128 .f32) (rr : Fin 128) (g : Fin 4) (q : Fin 128) :
    qwLanes v (ix3 rr g q) = qwScale v (ix1 g) := by
  unfold qwLanes
  refine (broadcastTo_apply _ broadcasts_S1x4x1_S128x4x128 (ix3 rr g q) (ix3 0 g 0) (fun a => ?_)).trans ?_
  · match a with
    | ⟨0, _⟩ => rfl
    | ⟨1, _⟩ => rfl
    | ⟨2, _⟩ => rfl
  refine (shapeCast_apply _ shapeCasts_S1x4x1_S1x4x1 (ix3 0 g 0) (ix3 0 g 0) rfl).trans ?_
  refine shapeCast_apply _ shapeCasts_S4_S1x4x1 (ix3 0 g 0) (ix1 g) ?_
  rw [Shape.rowMajor_val_three, Shape.rowMajor_val_one]
  show g.val = ((0 : Fin 1).val * 4 + g.val) * 1 + (0 : Fin 1).val
  simp

/-- Reducing over the rows: the index inserted at row r2 above column group g is (r2, g). -/
theorem qw_lift_row (g : Fin 4) (r2 : Fin 128) : reduces_S128x4_S4.lift (ix1 g) r2 = ix2 r2 g := by
  funext a
  match a with
  | ⟨0, _⟩ => exact Fin.ext rfl
  | ⟨1, _⟩ => exact Fin.ext rfl

/-- Reducing over the lanes: the index inserted at lane q above (r2, g) is (r2, g, q). -/
theorem qw_lift_lane (r2 : Fin 128) (g : Fin 4) (q : Fin 128) : reduces_S128x4x128_S128x4.lift (ix2 r2 g) q = ix3 r2 g q := by
  funext a
  match a with
  | ⟨0, _⟩ => exact Fin.ext rfl
  | ⟨1, _⟩ => exact Fin.ext rfl
  | ⟨2, _⟩ => exact Fin.ext rfl

/-- A row's maximum in column group g: the largest absolute value over the 128 lanes. -/
theorem qwRowMax_apply (v : FVec Ideal S128x4x128 .f32) (r2 : Fin 128) (g : Fin 4) :
    qwRowMax v (ix2 r2 g) = max128 fun q => absE (v (ix3 r2 g q)) := by
  unfold qwRowMax
  refine (Ideal.multiReduction_maximumf_single _ _ reduces_S128x4x128_S128x4 (.inl rfl) rfl (ix2 r2 g)).trans ?_
  unfold max128
  refine Finset.fold_congr fun q _ => ?_
  exact congrArg (fun i => absE (v i)) (qw_lift_lane r2 g q)

/-- A column group's maximum: the largest of the 128 rows' maxima. -/
theorem qwColMax_apply (v : FVec Ideal S128x4x128 .f32) (g : Fin 4) :
    qwColMax v (ix1 g) = max128 fun r2 => max128 fun q => absE (v (ix3 r2 g q)) := by
  unfold qwColMax
  refine (Ideal.multiReduction_maximumf_single _ _ reduces_S128x4_S4 (.inl rfl) rfl (ix1 g)).trans ?_
  unfold max128
  refine Finset.fold_congr fun r2 _ => ?_
  rw [Function.comp_apply, qw_lift_row g r2, qwRowMax_apply v r2 g]
  rfl

/-- A column group's scale: its maximum divided by 127, at least 1e-12. -/
theorem qwScale_apply (v : FVec Ideal S128x4x128 .f32) (g : Fin 4) :
    qwScale v (ix1 g) = scaleOf (max128 fun r2 => max128 fun q => absE (v (ix3 r2 g q))) :=
  congrArg scaleOf (qwColMax_apply v g)

/-- A dequantised band at (rr, c): the entry (rr, c / 128, c % 128) of the view, quantised with the scale of column
    group c / 128 and dequantised. -/
theorem wband_apply (v : FVec Ideal S128x4x128 .f32) (rr : Fin 128) (c : Fin 512) :
    wband v (ix2 rr c) = qdq (v (ix3 rr ⟨c.val / 128, by omega⟩ ⟨c.val % 128, Nat.mod_lt _ (by norm_num)⟩))
      (scaleOf (max128 fun r2 => max128 fun q => absE (v (ix3 r2 ⟨c.val / 128, by omega⟩ q)))) := by
  rw [wband_eq]
  refine (shapeCast_apply _ shapeCasts_S128x4x128_S128x512 (ix2 rr c)
    (ix3 rr ⟨c.val / 128, by omega⟩ ⟨c.val % 128, Nat.mod_lt _ (by norm_num)⟩) ?_).trans ?_
  · rw [Shape.rowMajor_val_three, Shape.rowMajor_val_two]
    show (rr.val * 4 + c.val / 128) * 128 + c.val % 128 = rr.val * 512 + c.val
    omega
  · show qdq _ (qwLanes v _) = _
    rw [qwLanes_apply, qwScale_apply]

/-- Band `o / 128` of the block, viewed as 128 × 4 × 128: entry (r2, g, q) is the block at (o + r2, 128 g + q). -/
theorem qw_view_apply (o : Nat) (h : S512x512.Slices ![o, 0] S128x512) (W : Vec Ideal S512x512 .f32)
    (r2 : Fin 128) (g : Fin 4) (q : Fin 128) :
    shapeCast S128x4x128 (extractStridedSlice S128x512 ![o, 0] W h) shapeCasts_S128x512_S128x4x128 (ix3 r2 g q)
      = nat2 W (o + r2.val) (128 * g.val + q.val) := by
  refine (shapeCast_apply _ shapeCasts_S128x512_S128x4x128 (ix3 r2 g q) (ix2 r2 ⟨128 * g.val + q.val, by omega⟩) ?_).trans ?_
  · rw [Shape.rowMajor_val_three, Shape.rowMajor_val_two]
    show r2.val * 512 + (128 * g.val + q.val) = (r2.val * 4 + g.val) * 128 + q.val
    omega
  refine (slice2_axis0_eq o W h r2 _).trans ?_
  exact nat2_ix2 W _ _

/-- A dequantised band at (rr, c) is the dequantised block at (o + rr, c), when `o` is a multiple of 128. -/
theorem qw_band_apply (o : Nat) (h : S512x512.Slices ![o, 0] S128x512) (W : Vec Ideal S512x512 .f32)
    (n : Fin 512) (c : Fin 512) (rr : Fin 128) (hn : n.val = o + rr.val) (ho : o = 128 * (n.val / 128)) :
    wband (shapeCast S128x4x128 (extractStridedSlice S128x512 ![o, 0] W h) shapeCasts_S128x512_S128x4x128) (ix2 rr c)
      = WD (nat2 W) n.val c.val := by
  rw [wband_apply]
  unfold WD wScale max128
  rw [qw_view_apply]
  have hc : 128 * (c.val / 128) + c.val % 128 = c.val := Nat.div_add_mod c.val 128
  rw [← hn, hc]
  congr 2
  refine Finset.fold_congr fun r2 _ => ?_
  refine Finset.fold_congr fun q _ => ?_
  rw [qw_view_apply, ← ho]

/-- The body's four bands are `wband` of rows 128 p … 128 p + 127 of the block viewed as 128 × 4 × 128 (the same chains of operations). -/
theorem qw_pay5_eq (W : Vec Ideal S512x512 .f32) :
    k0_pay5 W = shapeCast S128x4x128 (extractStridedSlice S128x512 ![0, 0] W slices_S512x512_o0_0_S128x512) shapeCasts_S128x512_S128x4x128 := rfl

theorem qw_pay8_eq (W : Vec Ideal S512x512 .f32) :
    k0_pay8 (k0_pay6 W) (k0_pay7 W) (Scalar.ofBits .f32 0xC3000000#32) (Scalar.ofBits .f32 0x42FE0000#32) = wband (k0_pay5 W) := rfl

theorem qw_pay9_eq (W : Vec Ideal S512x512 .f32) :
    k0_pay9 W = wband (shapeCast S128x4x128 (extractStridedSlice S128x512 ![128, 0] W slices_S512x512_o128_0_S128x512) shapeCasts_S128x512_S128x4x128) := rfl

theorem qw_pay10_eq (W : Vec Ideal S512x512 .f32) :
    k0_pay10 W = wband (shapeCast S128x4x128 (extractStridedSlice S128x512 ![256, 0] W slices_S512x512_o256_0_S128x512) shapeCasts_S128x512_S128x4x128) := rfl

theorem qw_pay11_eq (W : Vec Ideal S512x512 .f32) :
    k0_pay11 W = shapeCast S128x4x128 (extractStridedSlice S128x512 ![384, 0] W slices_S512x512_o384_0_S128x512) shapeCasts_S128x512_S128x4x128 := rfl

/-- Off the stacking axis a band's index has the stacked index's coordinate. -/
theorem qw_off_axis (n : Fin 512) (c : Fin 512) (rr : Fin 128) (hr : S128x512.rank = S512x512.rank) :
    ∀ b : Fin S128x512.rank, b.cast hr ≠ (0 : Fin S512x512.rank) → ((ix2 rr c : S128x512.Idx) b).val = ((ix2 n c : S512x512.Idx) (b.cast hr)).val := by
  intro b hb
  match b with
  | ⟨0, _⟩ => exact absurd rfl hb
  | ⟨1, _⟩ => rfl

/-- Four 128 × 512 pieces stacked along the rows, read at row n = 128 p + rr: piece p at row rr. -/
theorem qw_cat4_0 (x0 x1 x2 x3 : S128x512.Idx → E) (n c : Fin 512) (rr : Fin 128) (hn : n.val = 0 + rr.val) :
    concatenate S512x512 0 [⟨S128x512, x0⟩, ⟨S128x512, x1⟩, ⟨S128x512, x2⟩, ⟨S128x512, x3⟩]
      concatenates_S128x512_S128x512_S128x512_S128x512_S512x512_d0 (ix2 n c) = x0 (ix2 rr c) :=
  concatenate_apply_piece (t := S512x512) (0 : Fin S512x512.rank) [⟨S128x512, x0⟩, ⟨S128x512, x1⟩, ⟨S128x512, x2⟩, ⟨S128x512, x3⟩]
    concatenates_S128x512_S128x512_S128x512_S128x512_S512x512_d0 (ix2 n c)
    0 (by show 0 < 4; omega) S128x512 x0 rfl rfl 0 rfl (ix2 rr c) (qw_off_axis n c rr rfl) hn.symm

theorem qw_cat4_1 (x0 x1 x2 x3 : S128x512.Idx → E) (n c : Fin 512) (rr : Fin 128) (hn : n.val = 128 + rr.val) :
    concatenate S512x512 0 [⟨S128x512, x0⟩, ⟨S128x512, x1⟩, ⟨S128x512, x2⟩, ⟨S128x512, x3⟩]
      concatenates_S128x512_S128x512_S128x512_S128x512_S512x512_d0 (ix2 n c) = x1 (ix2 rr c) :=
  concatenate_apply_piece (t := S512x512) (0 : Fin S512x512.rank) [⟨S128x512, x0⟩, ⟨S128x512, x1⟩, ⟨S128x512, x2⟩, ⟨S128x512, x3⟩]
    concatenates_S128x512_S128x512_S128x512_S128x512_S512x512_d0 (ix2 n c)
    1 (by show 1 < 4; omega) S128x512 x1 rfl rfl 128 rfl (ix2 rr c) (qw_off_axis n c rr rfl) hn.symm

theorem qw_cat4_2 (x0 x1 x2 x3 : S128x512.Idx → E) (n c : Fin 512) (rr : Fin 128) (hn : n.val = 256 + rr.val) :
    concatenate S512x512 0 [⟨S128x512, x0⟩, ⟨S128x512, x1⟩, ⟨S128x512, x2⟩, ⟨S128x512, x3⟩]
      concatenates_S128x512_S128x512_S128x512_S128x512_S512x512_d0 (ix2 n c) = x2 (ix2 rr c) :=
  concatenate_apply_piece (t := S512x512) (0 : Fin S512x512.rank) [⟨S128x512, x0⟩, ⟨S128x512, x1⟩, ⟨S128x512, x2⟩, ⟨S128x512, x3⟩]
    concatenates_S128x512_S128x512_S128x512_S128x512_S512x512_d0 (ix2 n c)
    2 (by show 2 < 4; omega) S128x512 x2 rfl rfl 256 rfl (ix2 rr c) (qw_off_axis n c rr rfl) hn.symm

theorem qw_cat4_3 (x0 x1 x2 x3 : S128x512.Idx → E) (n c : Fin 512) (rr : Fin 128) (hn : n.val = 384 + rr.val) :
    concatenate S512x512 0 [⟨S128x512, x0⟩, ⟨S128x512, x1⟩, ⟨S128x512, x2⟩, ⟨S128x512, x3⟩]
      concatenates_S128x512_S128x512_S128x512_S128x512_S512x512_d0 (ix2 n c) = x3 (ix2 rr c) :=
  concatenate_apply_piece (t := S512x512) (0 : Fin S512x512.rank) [⟨S128x512, x0⟩, ⟨S128x512, x1⟩, ⟨S128x512, x2⟩, ⟨S128x512, x3⟩]
    concatenates_S128x512_S128x512_S128x512_S128x512_S512x512_d0 (ix2 n c)
    3 (by show 3 < 4; omega) S128x512 x3 rfl rfl 384 rfl (ix2 rr c) (qw_off_axis n c rr rfl) hn.symm

/-- Entry (n, c) of the stacked dequantised bands is the dequantised block at (n, c): row n lies in band n / 128 at
    row n % 128, and that band's scale for column group c / 128 is the block's scale of (n / 128, c / 128). -/
theorem wcat_apply (W : Vec Ideal S512x512 .f32) (n : Fin 512) (c : Fin 512) :
    wcat (F := Ideal) W (ix2 n c) = WD (nat2 W) n.val c.val := by
  have hn := n.isLt
  unfold wcat
  rw [qw_pay8_eq, qw_pay5_eq, qw_pay9_eq, qw_pay10_eq, qw_pay11_eq]
  rcases (by omega : n.val / 128 = 0 ∨ n.val / 128 = 1 ∨ n.val / 128 = 2 ∨ n.val / 128 = 3) with h0 | h0 | h0 | h0
  · have e : n.val = 0 + (⟨n.val - 0, by omega⟩ : Fin 128).val := by show n.val = 0 + (n.val - 0); omega
    exact (qw_cat4_0 _ _ _ _ n c _ e).trans (qw_band_apply 0 _ W n c _ e (by omega))
  · have e : n.val = 128 + (⟨n.val - 128, by omega⟩ : Fin 128).val := by show n.val = 128 + (n.val - 128); omega
    exact (qw_cat4_1 _ _ _ _ n c _ e).trans (qw_band_apply 128 _ W n c _ e (by omega))
  · have e : n.val = 256 + (⟨n.val - 256, by omega⟩ : Fin 128).val := by show n.val = 256 + (n.val - 256); omega
    exact (qw_cat4_2 _ _ _ _ n c _ e).trans (qw_band_apply 256 _ W n c _ e (by omega))
  · have e : n.val = 384 + (⟨n.val - 384, by omega⟩ : Fin 128).val := by show n.val = 384 + (n.val - 384); omega
    exact (qw_cat4_3 _ _ _ _ n c _ e).trans (qw_band_apply 384 _ W n c _ e (by omega))

end Cert.KernelIdeal.BodyValue

end
-- ==== Proof.BodyValue.lean ====
/-
  What one run of the kernel body adds to the accumulator: at entry (r, n) the inner product, over the block's 512
  columns, of row r of the dequantised activation block with row n of the dequantised weight block; and the last
  point's output: the accumulator plus the bias row.
-/
import proofs.«114933_j23905787969796_1_alg».proof.Proof.QuantX
import proofs.«114933_j23905787969796_1_alg».proof.Proof.QuantW
import Idealize.ShloMosaic.Lib.ValueLayout

noncomputable section

namespace Cert.KernelIdeal.BodyValue

open Idealize.ShloMosaic Idealize.ShloMosaic.ValueIdx Cert.KernelIdeal Cert.KernelIdeal.Gen Cert.QLin

/-! ## The matrix product's operand indices

The product contracts the second axis of its left operand with the first axis of its right operand: at output
entry `i` and contraction index `q`, the left operand is read at `(i 0, q)` and the right at `(q, i 1)`. -/

theorem lhs_mm_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl

theorem lhs_mm_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q

theorem rhs_mm_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q

theorem rhs_mm_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The matrix product into a zero accumulator, at entry (r, n): the sum over the 512 contraction positions k of the
    left operand at (r, k) times the right operand at (k, n). -/
theorem matmul_zero_ix2 (L : FVec Ideal S1024x512 .bf16) (R : FVec Ideal S512x512 .bf16) (r : Fin 1024) (n : Fin 512) :
    matmul dot_S1024x512_S512x512_S1024x512_1_0_0_1_n_n none L R (constant (F := Ideal) S1024x512 .f32 0x00000000#32) (ix2 r n)
      = ∑ k : Fin 512, L (ix2 r k) * R (ix2 k n) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r n) ((ValueIdx.contrEquiv1 dot_S1024x512_S512x512_S1024x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 r n) ((ValueIdx.contrEquiv1 dot_S1024x512_S512x512_S1024x512_1_0_0_1_n_n 512 rfl rfl).symm k) = ix2 k n := funext fun a => Fin.ext (by
    match a with
    | ⟨0, _⟩ => exact (rhs_mm_0 _ _).trans hk
    | ⟨1, _⟩ => exact rhs_mm_1 _ _)
  rw [el, er]

/-- The accumulator's update. -/
theorem pay1_apply (X : Vec Ideal S1024x512 .f32) (W : Vec Ideal S512x512 .f32) (acc : Vec Ideal S1024x512 .f32)
    (r : Fin 1024) (n : Fin 512) :
    k0_pay1 (F := Ideal) (k0_pay4 X)
        (k0_pay8 (k0_pay6 W) (k0_pay7 W) (Scalar.ofBits .f32 0xC3000000#32) (Scalar.ofBits .f32 0x42FE0000#32))
        (k0_pay9 W) (k0_pay10 W) (k0_pay11 W) acc (ix2 r n)
      = acc (ix2 r n) + dotSeg 512 (nat2 X) (nat2 W) r.val n.val 0 := by
  -- the body's value is: the accumulator plus the product of the (narrowed) activations with the transposed
  -- (narrowed) stacked weight bands, viewed at its own shape
  show shapeCast S1024x512
      (addf acc (matmul dot_S1024x512_S512x512_S1024x512_1_0_0_1_n_n none
        (truncf .bf16 (k0_pay4 X) bitsLt_bf16_f32)
        (transpose S512x512 [1, 0] (truncf .bf16 (wcat W) bitsLt_bf16_f32) transposes_S512x512_p1_0_S512x512)
        (constant (F := Ideal) S1024x512 .f32 0x00000000#32)))
      shapeCasts_S1024x512_S1024x512 (ix2 r n) = _
  rw [shapeCast_self, addf_apply]
  refine congrArg (acc (ix2 r n) + ·) ?_
  refine (matmul_zero_ix2 _ _ r n).trans ?_
  unfold dotSeg
  refine Finset.sum_congr rfl fun k _ => ?_
  rw [truncf_apply, transpose_ix2_apply, truncf_apply, pay4_apply, wcat_apply, Nat.zero_add]

/-- The output block: accumulator plus bias row. -/
theorem pay2_apply (A : Vec Ideal S1024x512 .f32) (B : Vec Ideal S1x512 .f32) (r : Fin 1024) (n : Fin 512) :
    k0_pay2 (F := Ideal) A B (ix2 r n) = A (ix2 r n) + B (ix2 (0 : Fin 1) n) := by
  show addf (F := Ideal) (φ := .f32) A
      (broadcastTo S1024x512 (shapeCast S1x512 (B : FVec Ideal S1x512 .f32) shapeCasts_S1x512_S1x512) broadcasts_S1x512_S1024x512)
      (ix2 r n) = _
  rw [addf_apply, shapeCast_self]
  exact congrArg (A (ix2 r n) + ·) (broadcastTo_1b_ab_apply B broadcasts_S1x512_S1024x512 r n)

/-- The reset stores zeros. -/
theorem pay3_apply (j : S1024x512.Idx) : k0_pay3 (F := Ideal) j = 0 := by
  show shapeCast S1024x512 (broadcast S1024x512 (Scalar.ofBits (F := Ideal) .f32 0x00000000#32)) shapeCasts_S1024x512_S1024x512 j = 0
  rw [shapeCast_self, broadcast_apply]
  exact Ideal.ofBits_zero_f32

end Cert.KernelIdeal.BodyValue

end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.Accum.lean ====
/-
  The accumulator over a run of eight grid points.  Points 8 g, …, 8 g + 7 share one output block (row block i,
  column block j) and walk the contraction in eight steps of 512 columns.  After step kk the accumulator holds, at
  (r, q), the inner product of row 1024 i + r of the dequantised activations with row 512 j + q of the dequantised
  weights over the first 512 (kk + 1) columns; after the eighth step that is the whole inner product, and the output
  block written there is that plus the bias.
-/
import proofs.«114933_j23905787969796_1_alg».proof.Proof.Pieces
import proofs.«114933_j23905787969796_1_alg».proof.Proof.Blocks
import proofs.«114933_j23905787969796_1_alg».proof.Proof.BodyValue
import proofs.«114933_j23905787969796_1_alg».proof.Proof.LibBlockSum

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.QLin

variable (m : (ℓ : Loc nD τ sig) → Buf (Elt Ideal) ℓ)

/-- The three arguments as arrays indexed by natural numbers. -/
def xN (c : Dev nD) : ℕ → ℕ → E := x2d (m ((c : Thread nD τ).loc main_arg0))
def wN (c : Dev nD) : ℕ → ℕ → E := nat2 (m ((c : Thread nD τ).loc main_arg1))
def bN (c : Dev nD) : ℕ → E := nat1 (m ((c : Thread nD τ).loc main_arg2))

/-- The inner product over the first `cnt` segments of 512 columns. -/
def accSum (x w : ℕ → ℕ → E) (r n cnt : ℕ) : E := ∑ s ∈ Finset.range cnt, dotSeg 512 x w r n (s * 512)

/-! ## One run of the body, on values -/

theorem body_nat (X : Vec Ideal S1024x512 .f32) (W : Vec Ideal S512x512 .f32) (acc : Vec Ideal S1024x512 .f32)
    (r q : ℕ) (hr : r < 1024) (hq : q < 512) :
    nat2 (body (F := Ideal) X W acc) r q = nat2 acc r q + dotSeg 512 (nat2 X) (nat2 W) r q 0 := by
  rw [nat2_of_lt _ _ _ hr hq, nat2_of_lt _ _ _ hr hq]
  exact BodyValue.pay1_apply X W acc ⟨r, hr⟩ ⟨q, hq⟩

/-- At point t the body adds the t-th segment of the inner product of the rows its blocks hold. -/
theorem point_nat (c : Dev nD) (t : Fin cfg0.N) (acc : Vec Ideal S1024x512 .f32) (r q : ℕ) (hr : r < 1024) (hq : q < 512) :
    nat2 (body (F := Ideal) (xblk m c t) (wblk m c t) acc) r q
      = nat2 acc r q + dotSeg 512 (xN m c) (wN m c) (t.val / 64 * 1024 + r) (t.val / 8 % 8 * 512 + q) (t.val % 8 * 512) := by
  have hN : t.val < 512 := lt_of_lt_of_eq t.isLt N512
  rw [body_nat _ _ _ r q hr hq]
  congr 1
  refine dotSeg_shift (xN m c) (nat2 (xblk m c t)) (wN m c) (nat2 (wblk m c t)) (t.val / 64 * 1024) (t.val / 8 % 8 * 512)
    (t.val % 8 * 512) 1024 (by omega) (by omega) (fun r' k' hr' hk' => ?_) (fun n' k' hn' hk' => ?_) r q hr hq
  · rw [xblk_nat m c t r' k' hr' hk', xarr_nat m c _ _ (by omega) (by omega)]; rfl
  · rw [wblk_nat m c t n' k' hn' hk', warr_eq m c]; rfl

/-! ## What each case leaves, over the point before -/

theorem stepA (c : Dev nD) (t : Fin cfg0.N) (h0 : t.val % 8 = 0) :
    (outsAt0 m c t.val t.isLt).2 = body (xblk m c t) (wblk m c t) (k0_pay3 (F := Ideal)) := by
  have h1 : ¬t.val % 8 = 7 := by omega
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem stepB (c : Dev nD) (t : Fin cfg0.N) (h0 : ¬t.val % 8 = 0) (h1 : ¬t.val % 8 = 7) :
    (outsAt0 m c t.val t.isLt).2
      = body (xblk m c t) (wblk m c t) (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

theorem stepC (c : Dev nD) (t : Fin cfg0.N) (h0 : ¬t.val % 8 = 0) (h1 : t.val % 8 = 7) :
    (outsAt0 m c t.val t.isLt).2
      = body (xblk m c t) (wblk m c t) (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

theorem stepC_out (c : Dev nD) (t : Fin cfg0.N) (h0 : ¬t.val % 8 = 0) (h1 : t.val % 8 = 7) :
    (outsAt0 m c t.val t.isLt).1
      = k0_pay2 (body (xblk m c t) (wblk m c t) (outsAt0 m c (t.val - 1) (Nat.lt_of_le_of_lt (Nat.sub_le _ _) t.isLt)).2) (bblk m c t) := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## The accumulator after every point -/

theorem acc_eq (c : Dev nD) : ∀ (n : ℕ) (h : n < cfg0.N) (r q : ℕ), r < 1024 → q < 512 →
    nat2 (outsAt0 m c n h).2 r q
      = accSum (xN m c) (wN m c) (n / 64 * 1024 + r) (n / 8 % 8 * 512 + q) (n % 8 + 1) := by
  intro n
  induction n with
  | zero =>
    intro h r q hr hq
    have e := stepA m c ⟨0, h⟩ rfl
    rw [show (outsAt0 m c 0 h).2 = _ from e, point_nat m c ⟨0, h⟩ _ r q hr hq]
    rw [nat2_of_lt _ _ _ hr hq, BodyValue.pay3_apply, zero_add]
    unfold accSum
    rw [Finset.sum_range_one]
    rfl
  | succ n ih =>
    intro h r q hr hq
    have hN : n + 1 < 512 := lt_of_lt_of_eq h N512
    by_cases h0 : (n + 1) % 8 = 0
    · have e := stepA m c ⟨n + 1, h⟩ h0
      rw [show (outsAt0 m c (n + 1) h).2 = _ from e, point_nat m c ⟨n + 1, h⟩ _ r q hr hq]
      rw [nat2_of_lt _ _ _ hr hq, BodyValue.pay3_apply, zero_add]
      unfold accSum
      show _ = ∑ s ∈ Finset.range ((n + 1) % 8 + 1), _
      rw [h0, Finset.sum_range_one]
    · have e : (outsAt0 m c (n + 1) h).2
          = body (xblk m c ⟨n + 1, h⟩) (wblk m c ⟨n + 1, h⟩) (outsAt0 m c n (Nat.lt_of_succ_lt h)).2 := by
        by_cases h1 : (n + 1) % 8 = 7
        · exact stepC m c ⟨n + 1, h⟩ h0 h1
        · exact stepB m c ⟨n + 1, h⟩ h0 h1
      rw [e, point_nat m c ⟨n + 1, h⟩ _ r q hr hq, ih (Nat.lt_of_succ_lt h) r q hr hq]
      unfold accSum
      show _ + dotSeg 512 _ _ _ _ ((n + 1) % 8 * 512) = _
      have a1 : n / 64 = (n + 1) / 64 := by omega
      have a2 : n / 8 % 8 = (n + 1) / 8 % 8 := by omega
      have a3 : n % 8 + 1 = (n + 1) % 8 := by omega
      rw [a1, a2, a3, Finset.sum_range_succ]

/-- The whole inner product is the sum of its eight segments. -/
theorem dot_full (x w : ℕ → ℕ → E) (r n : ℕ) : accSum x w r n 8 = dotSeg 4096 x w r n 0 := by
  unfold accSum dotSeg
  rw [Cert.BlockSum.sum_blocks 8 512 (by norm_num) (fun k : Fin 4096 => XD x r (0 + k.val) * WD w n (0 + k.val)),
    Finset.sum_range]
  refine Finset.sum_congr rfl fun s _ => Finset.sum_congr rfl fun k _ => ?_
  show _ = XD x r (0 + (s.val * 512 + k.val)) * WD w n (0 + (s.val * 512 + k.val))
  rw [Nat.zero_add]

/-- The output block written at the last point of a run of eight: the result at its rows and columns. -/
theorem out_eq (c : Dev nD) (t : Fin cfg0.N) (h1 : t.val % 8 = 7) (r q : ℕ) (hr : r < 1024) (hq : q < 512) :
    nat2 (outsAt0 m c t.val t.isLt).1 r q
      = G (xN m c) (wN m c) (bN m c) (t.val / 64 * 1024 + r) (t.val / 8 % 8 * 512 + q) := by
  have hN : t.val < 512 := lt_of_lt_of_eq t.isLt N512
  have h0 : ¬t.val % 8 = 0 := by omega
  rw [stepC_out m c t h0 h1, nat2_of_lt _ _ _ hr hq, BodyValue.pay2_apply]
  have e1 : body (xblk m c t) (wblk m c t) (outsAt0 m c (t.val - 1) (Nat.lt_of_le_of_lt (Nat.sub_le _ _) t.isLt)).2
      (ix2 ⟨r, hr⟩ ⟨q, hq⟩) = nat2 (outsAt0 m c t.val t.isLt).2 r q := by
    rw [stepC m c t h0 h1, nat2_of_lt _ _ _ hr hq]
  have e2 : bblk m c t (ix2 (0 : Fin 1) ⟨q, hq⟩) = nat2 (bblk m c t) 0 q := (nat2_of_lt _ 0 q (by omega) hq).symm
  have a8 : t.val % 8 + 1 = 8 := by omega
  rw [e1, e2, acc_eq m c t.val t.isLt r q hr hq, a8, dot_full, bblk_nat m c t q hq, barr_nat m c _ (by omega)]
  rfl

end Cert.KernelIdeal.Value

end
-- ==== Proof.Final.lean ====
/-
  From the blocks to the result.  Every eighth grid point writes one 1024 × 512 block of the [8192, 4096] result array;
  the 64 blocks tile it, so the array ends holding, at (r, n), the full inner product of row r of the dequantised
  activations with row n of the dequantised weights plus the bias at n.  The program's last operation reads that
  array as [4, 2048, 4096].
-/
import proofs.«114933_j23905787969796_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.QLin

variable (m : (ℓ : Loc nD τ sig) → Buf (Elt Ideal) ℓ) (ρ : Dev nD → PrngReg)

/-- The [8192, 4096] result array as one function of the arguments. -/
def Gout (c : Dev nD) : Vec Ideal S8192x4096 .f32 := fun i => G (xN m c) (wN m c) (bN m c) (i 0).val (i 1).val

/-- What a writing point writes back is its block of that function. -/
theorem flushed_eq (c : Dev nD) (t : Fin cfg0.N) (hf : (cfg0.win 3).flush t = true) :
    (dats m 0 c).flushed 3 t = ((cfg0.win 3).blk t).view.read (Elt Ideal) (Gout m c) := by
  have h7 : t.val % 8 = 7 := (flush0_3 t).mp hf
  show (cfg0.win 3).cut (grid0.coords t) ((dats m 0 c).after 3 t) = _
  rw [after0_3]
  funext j
  have hj0 : (j 0).val < 1024 := (j 0).isLt
  have hj1 : (j 1).val < 512 := (j 1).isLt
  have ej : (cfg0.win 3).xinj (grid0.coords t) j = ix2 ⟨(j 0).val, hj0⟩ ⟨(j 1).val, hj1⟩ :=
    funext fun a => by
      match a with
      | ⟨0, _⟩ => rfl
      | ⟨1, _⟩ => rfl
  show (outsAt0 m c t.val t.isLt).1 ((cfg0.win 3).xinj (grid0.coords t) j) = Gout m c (((cfg0.win 3).blk t).view.emb j)
  rw [ej]
  rw [← nat2_of_lt (outsAt0 m c t.val t.isLt).1 _ _ hj0 hj1]
  rw [out_eq m c t h7 _ _ hj0 hj1]
  have e0 : ((((cfg0.win 3).blk t).view.emb j) 0).val = t.val / 64 * 1024 + (j 0).val := by
    show win0_3.index t 0 * 1024 + 1 * (j 0).val = _
    rw [(idx3 t).1]; omega
  have e1 : ((((cfg0.win 3).blk t).view.emb j) 1).val = t.val / 8 % 8 * 512 + (j 1).val := by
    show win0_3.index t 1 * 512 + 1 * (j 1).val = _
    rw [(idx3 t).2]; omega
  show _ = G (xN m c) (wN m c) (bN m c) ((((cfg0.win 3).blk t).view.emb j) 0).val ((((cfg0.win 3).blk t).view.emb j) 1).val
  rw [e0, e1]

/-- Every entry of the result array lies in the block of some writing point. -/
theorem cover (c : Dev nD) (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 512 := N512
  let t : Fin cfg0.N := ⟨(i 0).val / 1024 * 64 + (i 1).val / 512 * 8 + 7, by omega⟩
  have ht : t.val = (i 0).val / 1024 * 64 + (i 1).val / 512 * 8 + 7 := rfl
  refine ⟨t, (flush0_3 t).mpr (by omega), ?_⟩
  show i ∈ ((View.whole main_v2).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(idx3 t).1]; omega
  | ⟨1, _⟩ =>
    show win0_3.index t 1 * 512 ≤ (i 1).val ∧ (i 1).val < win0_3.index t 1 * 512 + 512
    rw [(idx3 t).2]; omega

/-- So the result array ends at that function. -/
theorem final (c : Dev nD) : (dats m 0 c).arrAt 3 cfg0.N = Gout m c :=
  (dats m 0 c).arrAt_eq_of_cover 3 (Gout m c) (flushed_eq m c) (cover c)

/-- The program's result: the array read as [4, 2048, 4096]. -/
def result (c : Dev nD) : Buf (Elt Ideal) ((c : Thread nD τ).loc main_v3) :=
  shapeCast S4x2048x4096 (Gout m c) shapeCasts_S8192x4096_S4x2048x4096

theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = Gout m c := (Pipeline.withArrays_arr spec0 launch0.win.arr_inj c _ _ 3).trans (final m c)
  rw [e]
  rfl

/-- Entry (a, b, n) of the result is the result function at row 2048 a + b, column n. -/
theorem result_apply (c : Dev nD) (i : S4x2048x4096.Idx) :
    result m c i = G (xN m c) (wN m c) (bN m c) ((i 0).val * 2048 + (i 1).val) (i 2).val := by
  have h0 : (i 0).val < 4 := (i 0).isLt
  have h1 : (i 1).val < 2048 := (i 1).isLt
  have h2 : (i 2).val < 4096 := (i 2).isLt
  unfold result
  refine (shapeCast_apply (Gout m c) shapeCasts_S8192x4096_S4x2048x4096 i
    (ix2 ⟨(i 0).val * 2048 + (i 1).val, by omega⟩ ⟨(i 2).val, h2⟩) (by
      rewrite [Shape.rowMajor_val_two, Shape.rowMajor_val_three]
      show ((i 0).val * 2048 + (i 1).val) * 4096 + (i 2).val = ((i 0).val * 2048 + (i 1).val) * 4096 + (i 2).val
      rfl)).trans ?_
  rfl

/-- The run, read: the result buffer at `result`, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Value

end
-- ==== Proof.RefX.lean ====
/-
  The reference's dequantised activations: entry (r, k) of its [8192, 4096] matrix is the dequantised value of the
  argument read as 8192 rows, at (r, k).
-/
import proofs.«114933_j23905787969796_1_alg».proof.Proof.Gen.ReferenceIdeal.Read
import proofs.«114933_j23905787969796_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read Cert.QLin

/-- The composed reshapes: entry (r, g, q) of the [8192, 32, 128] view is the argument at (r / 2048, r % 2048, 128 g + q). -/
theorem idx01 (r : Fin 8192) (g : Fin 32) (q : Fin 128) :
    idx_main_v0 (idx_main_v1 (ix3 r g q))
      = ix3 (⟨r.val / 2048, by have := r.isLt; omega⟩ : Fin 4) (⟨r.val % 2048, Nat.mod_lt _ (by norm_num)⟩ : Fin 2048)
          (⟨128 * g.val + q.val, by have := g.isLt; have := q.isLt; omega⟩ : Fin 4096) := by
  have hr := r.isLt
  have hg := g.isLt
  have hq := q.isLt
  funext a
  match a with
  | ⟨0, _⟩ => exact Fin.ext (by
      show (((r.val * 32 + g.val) * 128 + q.val) / 4096 * 4096 + ((r.val * 32 + g.val) * 128 + q.val) % 4096) / 8388608 = r.val / 2048
      omega)
  | ⟨1, _⟩ => exact Fin.ext (by
      show (((r.val * 32 + g.val) * 128 + q.val) / 4096 * 4096 + ((r.val * 32 + g.val) * 128 + q.val) % 4096) / 4096 % 2048 = r.val % 2048
      omega)
  | ⟨2, _⟩ => exact Fin.ext (by
      show (((r.val * 32 + g.val) * 128 + q.val) / 4096 * 4096 + ((r.val * 32 + g.val) * 128 + q.val) % 4096) % 4096 = 128 * g.val + q.val
      omega)

/-- Entry (r, g, q) of the grouped view is the activation matrix at (r, 128 g + q). -/
theorem v1_apply (a0 : (⟨S4x2048x4096, .f32⟩ : BufTy).Contents (Elt Ideal)) (r : Fin 8192) (g : Fin 32) (q : Fin 128) :
    val_main_v1 (F := Ideal) a0 (ix3 r g q) = x2d a0 r.val (128 * g.val + q.val) := by
  have hr := r.isLt
  have hg := g.isLt
  have hq := q.isLt
  rw [val_main_v1_apply, val_main_v0_apply, idx01, x2d_of_lt a0 r.val (128 * g.val + q.val) hr (by omega)]

/-- The reduction's shape fact in the form the fold lemma wants. -/
theorem reduces_d2 : S8192x32x128.Reduces [2] S8192x32 := by decide

/-- The source index over (r, g) with q inserted on the last axis. -/
theorem lift_d2 (r : Fin 8192) (g : Fin 32) (q : Fin 128) :
    reduces_d2.lift (ix2 r g) q = ix3 r g q := by
  funext a
  match a with
  | ⟨0, _⟩ => rfl
  | ⟨1, _⟩ => rfl
  | ⟨2, _⟩ => rfl

/-- A maximum over the last axis of an [8192, 32, 128] array, read at (r, g): the fold of max over the 128 entries. -/
theorem reduce_d2 (x : S8192x32x128.Idx → E) (init : S_.Idx → E) (r : Fin 8192) (g : Fin 32) :
    Host.reduce FloatOps.maximumf x init reducesTo_S8192x32x128_S8192x32_d2 h_S_ (ix2 r g)
      = (Finset.univ : Finset (Fin 128)).fold max (init ix0) (fun q => x (ix3 r g q)) := by
  have h := Host.reduce_eq_fold_single FloatOps.maximumf x init reducesTo_S8192x32x128_S8192x32_d2 reduces_d2 h_S_ (ix2 r g)
  refine h.trans ?_
  rw [show Shape.Idx.first h_S_ = ix0 from eq_ix0 _]
  refine Finset.fold_congr fun q _ => ?_
  exact congrArg x (lift_d2 r g q)

/-- The group maxima: entry (r, g) is the largest absolute value among the 128 entries of row r's group g. -/
theorem v3_apply (a0 : (⟨S4x2048x4096, .f32⟩ : BufTy).Contents (Elt Ideal)) (r : Fin 8192) (g : Fin 32) :
    val_main_v3 (F := Ideal) a0 (ix2 r g) = max128 fun c => absE (x2d a0 r.val (128 * g.val + c.val)) := by
  unfold val_main_v3
  refine (reduce_d2 _ _ r g).trans ?_
  unfold max128
  refine Finset.fold_congr fun q _ => ?_
  rw [val_main_v2_apply, v1_apply]
  rfl

/-- The group scales: entry (r, g) is the scale of row r's group g. -/
theorem v7_apply (a0 : (⟨S4x2048x4096, .f32⟩ : BufTy).Contents (Elt Ideal)) (r : Fin 8192) (g : Fin 32) :
    val_main_v7 (F := Ideal) a0 (ix2 r g) = xScale (x2d a0) r.val g.val := by
  rw [val_main_v7_apply, val_main_v5_apply, v3_apply, val_main_v4_apply, val_main_v6_apply, val_main_cst_0_apply,
    val_main_cst_1_apply]
  rfl

/-- The two broadcasts of the scales back over the groups' entries. -/
theorem idx89 (r : Fin 8192) (g : Fin 32) (q : Fin 128) : idx_main_v8 (idx_main_v9 (ix3 r g q)) = ix2 r g := by
  funext a
  match a with
  | ⟨0, _⟩ => rfl
  | ⟨1, _⟩ => rfl

theorem idx2627 (r : Fin 8192) (g : Fin 32) (q : Fin 128) : idx_main_v26 (idx_main_v27 (ix3 r g q)) = ix2 r g := by
  funext a
  match a with
  | ⟨0, _⟩ => rfl
  | ⟨1, _⟩ => rfl

/-- The last reshape: entry (r, k) of the matrix is entry (r, k / 128, k % 128) of the grouped view. -/
theorem idx29 (r : Fin 8192) (k : Fin 4096) :
    idx_main_v29 (ix2 r k)
      = ix3 r (⟨k.val / 128, by have := k.isLt; omega⟩ : Fin 32) (⟨k.val % 128, Nat.mod_lt _ (by norm_num)⟩ : Fin 128) := by
  have hr := r.isLt
  have hk := k.isLt
  funext a
  match a with
  | ⟨0, _⟩ => exact Fin.ext (by show (r.val * 4096 + k.val) / 4096 = r.val; omega)
  | ⟨1, _⟩ => exact Fin.ext (by show (r.val * 4096 + k.val) / 128 % 32 = k.val / 128; omega)
  | ⟨2, _⟩ => exact Fin.ext (by show (r.val * 4096 + k.val) % 128 = k.val % 128; omega)

/-- The dequantised entry of the grouped view. -/
theorem v28_apply (a0 : (⟨S4x2048x4096, .f32⟩ : BufTy).Contents (Elt Ideal)) (r : Fin 8192) (g : Fin 32) (q : Fin 128) :
    val_main_v28 (F := Ideal) a0 (ix3 r g q)
      = qdq (x2d a0 r.val (128 * g.val + q.val)) (xScale (x2d a0) r.val g.val) := by
  rw [val_main_v28_apply, val_main_v12_apply, val_main_call1_v4_apply, val_main_call1_v3_apply, val_main_cst_3_apply,
    val_main_call1_v2_apply, val_main_call1_v1_apply, val_main_call1_v0_apply, val_main_cst_2_apply,
    val_main_v11_apply, val_main_v10_apply, v1_apply, val_main_v9_apply, val_main_v8_apply, idx89, v7_apply,
    val_main_v27_apply, val_main_v26_apply, idx2627, v7_apply]
  rfl

theorem v29_apply (a0 : (⟨S4x2048x4096, .f32⟩ : BufTy).Contents (Elt Ideal)) (r : Fin 8192) (k : Fin 4096) :
    val_main_v29 (F := Ideal) a0 (ix2 r k) = XD (x2d a0) r.val k.val := by
  rw [val_main_v29_apply, idx29, v28_apply]
  unfold XD
  have e : 128 * (k.val / 128) + k.val % 128 = k.val := by omega
  show qdq (x2d a0 r.val (128 * (k.val / 128) + k.val % 128)) (xScale (x2d a0) r.val (k.val / 128)) = _
  rw [e]

end Cert.ReferenceIdeal.RefValue

end
-- ==== Proof.RefW.lean ====
/-
  The reference's dequantised weights, transposed: entry (k, n) of its transposed [4096, 4096] matrix is the
  dequantised value of the weight argument at (n, k).
-/
import proofs.«114933_j23905787969796_1_alg».proof.Proof.Gen.ReferenceIdeal.Read
import proofs.«114933_j23905787969796_1_alg».proof.Proof.Spec
import Idealize.ShloMosaic.Lib.Pipeline.Value
import Idealize.ShloMosaic.Lib.ValueIdx
import Idealize.ShloMosaic.PureOps.Ideal.Laws
import Idealize.ShloMosaic.PureOps.Reduce
import Mathlib.Data.Finset.Fold
import Mathlib.Order.Basic

noncomputable section

namespace Cert.ReferenceIdeal.RefValue

open Idealize.ShloMosaic Idealize.ShloMosaic.ValueIdx Cert.ReferenceIdeal Cert.ReferenceIdeal.Gen Cert.ReferenceIdeal.Read Cert.QLin

/-- Entry (nb, rr, kb, q) of the weights cut into 32 x 32 groups of 128 x 128 is entry (128 nb + rr, 128 kb + q). -/
abbrev wIdx (nb : Fin 32) (rr : Fin 128) (kb : Fin 32) (q : Fin 128) : S4096x4096.Idx :=
  ix2 (⟨128 * nb.val + rr.val, by omega⟩ : Fin 4096) (⟨128 * kb.val + q.val, by omega⟩ : Fin 4096)

theorem idx13_ix4 (nb : Fin 32) (rr : Fin 128) (kb : Fin 32) (q : Fin 128) :
    idx_main_v13 (ix4 nb rr kb q) = wIdx nb rr kb q := by
  funext a
  match a with
  | ⟨0, _⟩ => exact Fin.ext (by
      show (((nb.val * 128 + rr.val) * 32 + kb.val) * 128 + q.val) / 4096 = 128 * nb.val + rr.val
      omega)
  | ⟨1, _⟩ => exact Fin.ext (by
      show (((nb.val * 128 + rr.val) * 32 + kb.val) * 128 + q.val) % 4096 = 128 * kb.val + q.val
      omega)

theorem v13_ix4 (a1 : (⟨S4096x4096, .f32⟩ : BufTy).Contents (Elt Ideal)) (nb : Fin 32) (rr : Fin 128) (kb : Fin 32)
    (q : Fin 128) : val_main_v13 (F := Ideal) a1 (ix4 nb rr kb q) = a1 (wIdx nb rr kb q) :=
  (val_main_v13_apply a1 _).trans (congrArg a1 (idx13_ix4 nb rr kb q))

theorem v14_ix4 (a1 : (⟨S4096x4096, .f32⟩ : BufTy).Contents (Elt Ideal)) (nb : Fin 32) (rr : Fin 128) (kb : Fin 32)
    (q : Fin 128) : val_main_v14 (F := Ideal) a1 (ix4 nb rr kb q) = absE (a1 (wIdx nb rr kb q)) :=
  (val_main_v14_apply a1 _).trans (congrArg (fun v : E => max v (-v)) (v13_ix4 a1 nb rr kb q))

/-- A source index of the two-axis reduction drops to (nb, kb) exactly when its axes 0 and 2 are nb and kb. -/
theorem drop_eq_iff (h : S32x128x32x128.ReducesTo [1, 3] S32x32) (i : S32x128x32x128.Idx) (nb kb : Fin 32) :
    h.drop i = ix2 nb kb ↔ i 0 = nb ∧ i 2 = kb := by
  constructor
  · intro e
    have e0 : ((h.drop i) 0 : Nat) = nb.val := congrArg (fun j : S32x32.Idx => (j 0).val) e
    have e1 : ((h.drop i) 1 : Nat) = kb.val := congrArg (fun j : S32x32.Idx => (j 1).val) e
    exact ⟨Fin.ext ((h.drop_apply_val_of_eq i 0 0).symm.trans e0),
      Fin.ext ((h.drop_apply_val_of_eq i 1 2).symm.trans e1)⟩
  · rintro ⟨e0, e1⟩
    funext b
    match b with
    | ⟨0, _⟩ => exact Fin.ext ((h.drop_apply_val_of_eq i 0 0).trans (congrArg Fin.val e0))
    | ⟨1, _⟩ => exact Fin.ext ((h.drop_apply_val_of_eq i 1 2).trans (congrArg Fin.val e1))

/-- The maximum over a group taken in one sweep is the maximum of the rows' maxima: both have the same upper bounds. -/
theorem v15_ix2 (a1 : (⟨S4096x4096, .f32⟩ : BufTy).Contents (Elt Ideal)) (nb kb : Fin 32) :
    val_main_v15 (F := Ideal) a1 (ix2 nb kb)
      = max128 fun rr => max128 fun q => absE (a1 (wIdx nb rr kb q)) := by
  unfold val_main_v15
  rw [Host.reduce_eq_fold]
  show (Finset.univ.filter fun i => reducesTo_S32x128x32x128_S32x32_d1_3.drop i = ix2 nb kb).fold max negInf
      (val_main_v14 (F := Ideal) a1) = _
  refine eq_of_forall_ge_iff fun c => ?_
  unfold max128
  rw [Finset.fold_max_le, Finset.fold_max_le]
  constructor
  · rintro ⟨h0, h⟩
    refine ⟨h0, fun rr _ => ?_⟩
    rw [Finset.fold_max_le]
    refine ⟨h0, fun q _ => ?_⟩
    rw [← v14_ix4]
    exact h _ (Finset.mem_filter.2 ⟨Finset.mem_univ _, (drop_eq_iff _ _ nb kb).2 ⟨rfl, rfl⟩⟩)
  · rintro ⟨h0, h⟩
    refine ⟨h0, fun i hi => ?_⟩
    obtain ⟨e0, e2⟩ := (drop_eq_iff _ i nb kb).1 (Finset.mem_filter.1 hi).2
    obtain ⟨rr, q, hi4⟩ : ∃ (rr : Fin 128) (q : Fin 128), i = ix4 nb rr kb q :=
      ⟨i 1, i 3, by rw [← e0, ← e2]; exact eq_ix4 i⟩
    rw [hi4, v14_ix4]
    exact (((Finset.fold_max_le c).1 (h rr (Finset.mem_univ _))).2 q (Finset.mem_univ _))

/-- An entry of the weights read at natural-number coordinates inside a group. -/
theorem nat2_wIdx (a1 : (⟨S4096x4096, .f32⟩ : BufTy).Contents (Elt Ideal)) (nb : Fin 32) (rr : Fin 128) (kb : Fin 32)
    (q : Fin 128) : nat2 a1 (128 * nb.val + rr.val) (128 * kb.val + q.val) = a1 (wIdx nb rr kb q) :=
  nat2_of_lt a1 _ _ (by omega) (by omega)

/-- The reference's scale of group (nb, kb) is the specification's. -/
theorem v19_ix2 (a1 : (⟨S4096x4096, .f32⟩ : BufTy).Contents (Elt Ideal)) (nb kb : Fin 32) :
    val_main_v19 (F := Ideal) a1 (ix2 nb kb) = wScale (nat2 a1) nb.val kb.val := by
  have h16 : val_main_v16 (F := Ideal) (ix2 nb kb) = c127 := (val_main_v16_apply _).trans rfl
  have h18 : val_main_v18 (F := Ideal) (ix2 nb kb) = cEps := (val_main_v18_apply _).trans rfl
  rw [val_main_v19_apply, val_main_v17_apply, h16, h18, v15_ix2]
  unfold wScale scaleOf
  simp only [nat2_wIdx]
  rfl

theorem idx20_21 (nb : Fin 32) (rr : Fin 128) (kb : Fin 32) (q : Fin 128) :
    idx_main_v20 (idx_main_v21 (ix4 nb rr kb q)) = ix2 nb kb := by
  funext a
  match a with
  | ⟨0, _⟩ => rfl
  | ⟨1, _⟩ => rfl

theorem idx31_32 (nb : Fin 32) (rr : Fin 128) (kb : Fin 32) (q : Fin 128) :
    idx_main_v31 (idx_main_v32 (ix4 nb rr kb q)) = ix2 nb kb := by
  funext a
  match a with
  | ⟨0, _⟩ => rfl
  | ⟨1, _⟩ => rfl

/-- The quantised entry (nb, rr, kb, q): divided by its group's scale, rounded to even, clamped. -/
theorem v24_ix4 (a1 : (⟨S4096x4096, .f32⟩ : BufTy).Contents (Elt Ideal)) (nb : Fin 32) (rr : Fin 128) (kb : Fin 32)
    (q : Fin 128) :
    val_main_v24 (F := Ideal) a1 (ix4 nb rr kb q)
      = min c127 (max cM128 (Ideal.liftRound Ideal.roundHalfEven
          (Ideal.div (a1 (wIdx nb rr kb q)) (wScale (nat2 a1) nb.val kb.val)))) := by
  have h4 : val_main_call3_v4 (F := Ideal) (ix4 nb rr kb q) = c127 := (val_main_call3_v4_apply _).trans rfl
  have h1 : val_main_call3_v1 (F := Ideal) (ix4 nb rr kb q) = cM128 := (val_main_call3_v1_apply _).trans rfl
  have h21 : val_main_v21 (F := Ideal) a1 (ix4 nb rr kb q) = wScale (nat2 a1) nb.val kb.val :=
    (val_main_v21_apply a1 _).trans ((val_main_v20_apply a1 _).trans
      ((congrArg (val_main_v19 (F := Ideal) a1) (idx20_21 nb rr kb q)).trans (v19_ix2 a1 nb kb)))
  rw [val_main_v24_apply, val_main_call3_v2_apply, val_main_v23_apply, val_main_v22_apply, h4, h1, h21, v13_ix4]
  rfl

theorem idx30_ix4 (nb : Fin 32) (rr : Fin 128) (kb : Fin 32) (q : Fin 128) :
    idx_main_v30 (ix4 nb rr kb q) = wIdx nb rr kb q := by
  funext a
  match a with
  | ⟨0, _⟩ => exact Fin.ext (by
      show (((nb.val * 128 + rr.val) * 32 + kb.val) * 128 + q.val) / 4096 = 128 * nb.val + rr.val
      omega)
  | ⟨1, _⟩ => exact Fin.ext (by
      show (((nb.val * 128 + rr.val) * 32 + kb.val) * 128 + q.val) % 4096 = 128 * kb.val + q.val
      omega)

theorem idx25_wIdx (nb : Fin 32) (rr : Fin 128) (kb : Fin 32) (q : Fin 128) :
    idx_main_v25 (wIdx nb rr kb q) = ix4 nb rr kb q := by
  funext a
  match a with
  | ⟨0, _⟩ => exact Fin.ext (by
      show ((128 * nb.val + rr.val) * 4096 + (128 * kb.val + q.val)) / 524288 = nb.val
      omega)
  | ⟨1, _⟩ => exact Fin.ext (by
      show ((128 * nb.val + rr.val) * 4096 + (128 * kb.val + q.val)) / 4096 % 128 = rr.val
      omega)
  | ⟨2, _⟩ => exact Fin.ext (by
      show ((128 * nb.val + rr.val) * 4096 + (128 * kb.val + q.val)) / 128 % 32 = kb.val
      omega)
  | ⟨3, _⟩ => exact Fin.ext (by
      show ((128 * nb.val + rr.val) * 4096 + (128 * kb.val + q.val)) % 128 = q.val
      omega)

/-- The dequantised entry (nb, rr, kb, q): the quantised entry times its group's scale. -/
theorem v33_ix4 (a1 : (⟨S4096x4096, .f32⟩ : BufTy).Contents (Elt Ideal)) (nb : Fin 32) (rr : Fin 128) (kb : Fin 32)
    (q : Fin 128) :
    val_main_v33 (F := Ideal) a1 (ix4 nb rr kb q)
      = qdq (a1 (wIdx nb rr kb q)) (wScale (nat2 a1) nb.val kb.val) := by
  have h30 : val_main_v30 (F := Ideal) a1 (ix4 nb rr kb q) = val_main_v24 (F := Ideal) a1 (ix4 nb rr kb q) :=
    (val_main_v30_apply a1 _).trans ((congrArg (val_main_v25 (F := Ideal) a1) (idx30_ix4 nb rr kb q)).trans
      ((val_main_v25_apply a1 _).trans (congrArg (val_main_v24 (F := Ideal) a1) (idx25_wIdx nb rr kb q))))
  have h32 : val_main_v32 (F := Ideal) a1 (ix4 nb rr kb q) = wScale (nat2 a1) nb.val kb.val :=
    (val_main_v32_apply a1 _).trans ((val_main_v31_apply a1 _).trans
      ((congrArg (val_main_v19 (F := Ideal) a1) (idx31_32 nb rr kb q)).trans (v19_ix2 a1 nb kb)))
  rw [val_main_v33_apply, h30, h32, v24_ix4]
  rfl

theorem idx34_35 (k n : Fin 4096) :
    idx_main_v34 (idx_main_v35 (ix2 k n))
      = ix4 (⟨n.val / 128, by omega⟩ : Fin 32) (⟨n.val % 128, by omega⟩ : Fin 128)
          (⟨k.val / 128, by omega⟩ : Fin 32) (⟨k.val % 128, by omega⟩ : Fin 128) := by
  funext a
  match a with
  | ⟨0, _⟩ => exact Fin.ext (by
      show (n.val * 4096 + k.val) / 524288 = n.val / 128
      omega)
  | ⟨1, _⟩ => exact Fin.ext (by
      show (n.val * 4096 + k.val) / 4096 % 128 = n.val % 128
      omega)
  | ⟨2, _⟩ => exact Fin.ext (by
      show (n.val * 4096 + k.val) / 128 % 32 = k.val / 128
      omega)
  | ⟨3, _⟩ => exact Fin.ext (by
      show (n.val * 4096 + k.val) % 128 = k.val % 128
      omega)

theorem v35_apply (a1 : (⟨S4096x4096, .f32⟩ : BufTy).Contents (Elt Ideal)) (k : Fin 4096) (n : Fin 4096) :
    val_main_v35 (F := Ideal) a1 (ix2 k n) = WD (nat2 a1) n.val k.val := by
  rw [val_main_v35_apply, val_main_v34_apply, idx34_35, v33_ix4]
  unfold WD
  rw [nat2_of_lt a1 n.val k.val n.isLt k.isLt]
  congr 2
  funext a
  match a with
  | ⟨0, _⟩ => exact Fin.ext (by show 128 * (n.val / 128) + n.val % 128 = n.val; omega)
  | ⟨1, _⟩ => exact Fin.ext (by show 128 * (k.val / 128) + k.val % 128 = k.val; omega)

end Cert.ReferenceIdeal.RefValue

end
-- ==== Proof.RefValue.lean ====
/-
  The reference's result: entry (a, b, n) of its [4, 2048, 4096] result is the full inner product of row
  2048 a + b of the dequantised activations with row n of the dequantised weights, plus the bias at n.
-/
import proofs.«114933_j23905787969796_1_alg».proof.Proof.RefX
import proofs.«114933_j23905787969796_1_alg».proof.Proof.RefW

noncomputable section

namespace Cert.ReferenceIdeal.RefValue

open Idealize.ShloMosaic Idealize.ShloMosaic.ValueIdx Cert.ReferenceIdeal Cert.ReferenceIdeal.Gen Cert.ReferenceIdeal.Read Cert.QLin

/-- The reference's matrix product at (r, n): the full inner product, over the 4096 columns, of row r of the dequantised
    activations with row n of the dequantised weights. -/
theorem v36_apply (a0 : (⟨S4x2048x4096, .f32⟩ : BufTy).Contents (Elt Ideal)) (a1 : (⟨S4096x4096, .f32⟩ : BufTy).Contents (Elt Ideal))
    (r : Fin 8192) (n : Fin 4096) :
    val_main_v36 (F := Ideal) a0 a1 (ix2 r n) = dotSeg 4096 (x2d a0) (nat2 a1) r.val n.val 0 := by
  rw [val_main_v36_apply]
  unfold dotSeg
  refine Finset.sum_congr rfl fun k _ => ?_
  -- the left operand is read at (r, k), the right (transposed) operand at (k, n)
  have el : lidx_main_v36 (ix2 r n) k = ix2 r k := funext fun a => Fin.ext (by
    match a with
    | ⟨0, _⟩ => rfl
    | ⟨1, _⟩ => rfl)
  have er : ridx_main_v36 (ix2 r n) k = ix2 k n := funext fun a => Fin.ext (by
    match a with
    | ⟨0, _⟩ => rfl
    | ⟨1, _⟩ => rfl)
  rw [el, er, v29_apply, v35_apply, Nat.zero_add]

/-- The reference's bias row broadcast down the 8192 rows, at (r, n): the bias at n. -/
theorem v38_apply (a2 : (⟨S4096, .f32⟩ : BufTy).Contents (Elt Ideal)) (r : Fin 8192) (n : Fin 4096) :
    val_main_v38 (F := Ideal) a2 (ix2 r n) = nat1 a2 n.val := by
  rw [val_main_v38_apply, val_main_v37_apply, nat1_of_lt a2 n.val n.isLt]
  exact congrArg a2 (funext fun a => Fin.ext (by
    match a with
    | ⟨0, _⟩ => rfl))

theorem ref_eq (a0 : (⟨S4x2048x4096, .f32⟩ : BufTy).Contents (Elt Ideal)) (a1 : (⟨S4096x4096, .f32⟩ : BufTy).Contents (Elt Ideal))
    (a2 : (⟨S4096, .f32⟩ : BufTy).Contents (Elt Ideal)) (i : S4x2048x4096.Idx) :
    val_main_v40 (F := Ideal) a0 a1 a2 i
      = G (x2d a0) (nat2 a1) (nat1 a2) ((i 0).val * 2048 + (i 1).val) (i 2).val := by
  have h0 : (i 0).val < 4 := (i 0).isLt
  have h1 : (i 1).val < 2048 := (i 1).isLt
  have h2 : (i 2).val < 4096 := (i 2).isLt
  have hR : (i 0).val * 2048 + (i 1).val < 8192 := by omega
  -- the final reshape reads the [8192, 4096] sum at row 2048 (i 0) + (i 1), column (i 2)
  have ei : idx_main_v40 i = ix2 (⟨(i 0).val * 2048 + (i 1).val, hR⟩ : Fin 8192) (⟨(i 2).val, h2⟩ : Fin 4096) :=
    funext fun a => Fin.ext (by
      match a with
      | ⟨0, _⟩ =>
        show (((i 0).val * 2048 + (i 1).val) * 4096 + (i 2).val) / 4096 = (i 0).val * 2048 + (i 1).val
        omega
      | ⟨1, _⟩ =>
        show (((i 0).val * 2048 + (i 1).val) * 4096 + (i 2).val) % 4096 = (i 2).val
        omega)
  rw [val_main_v40_apply, ei, val_main_v39_apply, v36_apply, v38_apply]
  unfold G
  rfl

end Cert.ReferenceIdeal.RefValue

end
-- ==== Proof.lean ====
/-
  The claims.  Both programs compute, at the ideal instance, the same function of their arguments: quantise the
  activations per row and group of 128 columns and the weights per 128 × 128 group (scale = largest absolute value / 127,
  at least 1e-12; value = clamp(round(entry / scale)) · scale), multiply the dequantised activations with the transposed
  dequantised weights and add the bias.  The kernel walks the contraction in eight steps of 512 columns and accumulates;
  the reference takes the inner product in one pass: on the extended reals addition is associative and commutative, so
  the two sums agree, with no finiteness needed.  The kernel's result is read off its frame run (the accumulator's
  contents point by point, the blocks tiling the result array, the closing reshape), the reference's off its run.
-/
import proofs.«114933_j23905787969796_1_alg».proof.Defs
import proofs.«114933_j23905787969796_1_alg».proof.Proof.Gen.Kernel
import proofs.«114933_j23905787969796_1_alg».proof.Proof.Gen.Kernel.Skeleton
import proofs.«114933_j23905787969796_1_alg».proof.Proof.Gen.Kernel.Launch
import proofs.«114933_j23905787969796_1_alg».proof.Proof.Gen.Kernel.Points
import proofs.«114933_j23905787969796_1_alg».proof.Proof.Gen.Kernel.Frame
import proofs.«114933_j23905787969796_1_alg».proof.Proof.Gen.KernelIdeal
import proofs.«114933_j23905787969796_1_alg».proof.Proof.Gen.KernelIdeal.Skeleton
import proofs.«114933_j23905787969796_1_alg».proof.Proof.Gen.KernelIdeal.Launch
import proofs.«114933_j23905787969796_1_alg».proof.Proof.Gen.KernelIdeal.Points
import proofs.«114933_j23905787969796_1_alg».proof.Proof.Gen.KernelIdeal.Frame
import proofs.«114933_j23905787969796_1_alg».proof.Proof.Gen.ReferenceIdeal
import proofs.«114933_j23905787969796_1_alg».proof.Proof.Gen.ReferenceIdeal.Run
import proofs.«114933_j23905787969796_1_alg».proof.Proof.Gen.ReferenceIdeal.Read
import proofs.«114933_j23905787969796_1_alg».proof.Proof.Gen.Pre_finite_inputs
import proofs.«114933_j23905787969796_1_alg».proof.Proof.Final
import proofs.«114933_j23905787969796_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

theorem preserves : Cert.preserves_Kernel_KernelIdeal := trivial

/-- At the ideal instance the kernel's result buffer ends at the result function of its arguments (its frame run, read),
    the reference's at its run's term, which read at an index is the same function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq]
  funext i
  show _ = Cert.KernelIdeal.Value.result m c i
  rw [Cert.ReferenceIdeal.RefValue.ref_eq, Cert.KernelIdeal.Value.result_apply, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
